-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .bf16 = 32 ∨ (Rect.block (s := S8192x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Bits.RegionNorm.lean ====
/-
  The first pallas_call, the row normalisation, as one pipeline region: what its body leaves in the output block
  at a grid point, the body's triple, the pipeline's proof data at the buffer contents `V` the region is entered
  from, and the body obligation. The grid has 32 points; point `t` reads rows `256 t … 256 t + 255` of the input
  and writes the same rows of the normalised array. The body keeps nothing between points.
-/
import proofs.«134123_j33732673143833_1_alg».proof.Proof.Gen.Kernel.Launch
import proofs.«134123_j33732673143833_1_alg».proof.Proof.Gen.Kernel.Skeleton
import proofs.«134123_j33732673143833_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body loads and stores through: the whole 256 × 4096 block. -/
abbrev rowsRect : Rect S256x4096 := Rect.unit (s := S256x4096) ![0, 0] S256x4096.size inb_S256x4096_S256x4096_0_0

/-- What the body leaves in the output block: the normalised rows of the input block, stored whole. -/
def normBlock (x0 : Vec F S256x4096 .f32) : Vec F S256x4096 .bf16 :=
  View.canon [⟨rowsRect, k0_pay1 (View.ld x0 rowsRect)⟩]

/-- The one store covers the block. -/
theorem normBlock_cover (p0 : Vec F S256x4096 .bf16) (y : S256x4096.Idx) :
    ∃ pc ∈ ([⟨rowsRect, p0⟩] : List (View.Piece (Elt F) S256x4096 .bf16)), y ∈ pc.1.set :=
  View.cover_of_tiled [⟨rowsRect, p0⟩] S256x4096.size (by rfl) y

set_option maxHeartbeats 1000000 in
/-- The body on whole staging memrefs, the input's at contents `x0` and the output's at anything, runs to the
    continuation holding the input's as it was and the output's at `normBlock x0`. -/
theorem norm_body (c : Dev nD) (E : Set ℕ) (i : grid0.Coords) (arg1 : Memref sig .tc .vmem S256x4096 .f32) (harg1 : arg1.IsWhole)
    (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (normBlock x0)) -∗ K ⟨⟩))
      ⊢ wp frame (wpE (defs₀ (F := F)) Variants.none c none) E (cc0__l2norm_kernel i arg1 harg1 arg2 harg2) K := by
  simp only [cc0__l2norm_kernel_eq_skeleton]; unfold cc0__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (normBlock_cover _)

/-- The proof data of the region on core `c`: the arrays as the region finds them; after the body at point `t`
    the input's buffer at its block and the output's at the normalised block; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => normBlock (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = normBlock (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (norm_body c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.RegionFfn.lean ====
import proofs.«134123_j33732673143833_1_alg».proof.Proof.Gen.Kernel.Launch
import proofs.«134123_j33732673143833_1_alg».proof.Proof.Gen.Kernel.Skeleton
import proofs.«134123_j33732673143833_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second kernel of the program: the blocked matrix product with bias and rectifier

The grid is 8 × 4 × 4; point `t` has reduction coordinate `k = t % 4`. A scratch accumulator is reset at
`k = 0`, receives one partial product at every point, and at `k = 3` is read with the bias block into
the output block. -/

/-! ## The windows' blocks -/

/-- Window `w`'s block at point `t`, read off its array at the region-entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left-factor window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right-factor window's current staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window's current staging buffer holds its block at every point: where it is not fetched its block
    index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, in closed form -/

/-- "The reduction coordinate is 0": the accumulator is reset. -/
abbrev isFirstK (i : grid1.Coords) : Prop := (Scalar.cmpi .ne (Scalar.extui (Scalar.cmpi .eq (BitVec.ofNat 32 (i 2).val) 0#32)) 0#32) = 1#1
theorem isFirstK_iff : ∀ t : Fin cfg1.N, isFirstK (grid1.coords t) ↔ t.val % 4 = 0 :=
  (by decide +kernel : ∀ t : Fin grid1.N, isFirstK (grid1.coords t) ↔ t.val % 4 = 0)

/-- "The reduction coordinate is 3": the output block is stored. -/
abbrev isLastK (i : grid1.Coords) : Prop := k1_cond2 i = 1#1
theorem isLastK_iff : ∀ t : Fin cfg1.N, isLastK (grid1.coords t) ↔ t.val % 4 = 3 :=
  (by decide +kernel : ∀ t : Fin grid1.N, isLastK (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Where the output block is not stored the output window is idle, -/
theorem idle1_3 : ∀ t : Fin cfg1.N, ¬isLastK (grid1.coords t) → cfg1.idle 3 (grid1.coords t) = true := by decide +kernel
/-- and is not written back; -/
theorem noFlush1_3 : ∀ t : Fin cfg1.N, ¬isLastK (grid1.coords t) → (cfg1.win 3).flush t = false := by decide +kernel
/-- where it is stored the window is live. -/
theorem live1_3 : ∀ t : Fin cfg1.N, isLastK (grid1.coords t) → cfg1.idle 3 (grid1.coords t) = false := by decide +kernel

/-! ## The staging memrefs and the accumulator -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev accM : Memref sig .tc .vmem S1024x1024 .f32 := Memref.whole cc1_scratch0
abbrev accV : View sig .tc .vmem S1024x1024 .f32 := accM.view
/-- One staging buffer of the output window, through which its contents are stated. -/
abbrev outV : View sig .tc .vmem S1024x1024 .f32 := (Memref.whole cc1_stg3_0 : Memref sig .tc .vmem S1024x1024 .f32).view

/-- The other kernel's four staging buffers, each at some contents and carried through this region unread, beside
    a proposition `P` about the accumulator. -/
abbrev besideOthers (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ P)

/-- The region's entry invariant, with the accumulator as a memref owned at some contents. -/
theorem PhiA1_eq (c : Dev nD) :
    (Pipeline.ΦA spec1 c : sProp 𝕄)
      = iprop(besideOthers (F := F) c iprop(∃ d, owns (c : Thread nD τ) accM fullShare d) ∗ (∃ r, prngReg c r)) := by
  unfold Pipeline.ΦA; rw [scopedRest1_eq]; simp only [accM, owns_whole]; try rfl

/-! ## The body run on any whole memrefs, case by case: the pieces its stores leave are what the run finds -/

set_option maxHeartbeats 1000000 in
/-- RESET AND ACCUMULATE (the reduction coordinate is 0). From the three input buffers at their contents, the output
    buffer at contents `xo` that are handed back untouched, and the accumulator at anything, the body runs to the
    continuation with the inputs and the output buffer as they were and the accumulator holding the listed writes
    (last first). -/
noncomputable def runReset (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : isFirstK i) (hc1 : ¬isLastK i)
    (x0 : Vec F S1024x1024 .bf16) (x1 : Vec F S1024x1024 .f32) (x2 : Vec F S1x1024 .f32) :
    { LS : List (View.Piece (Elt F) S1024x1024 .f32) //
      ∀ (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__ffn_kernel i arg3 harg3 arg4 harg4 arg5 harg5 arg6 harg6 arg7 harg7) K } := by
  refine ⟨?_, fun xo E K => ?run⟩
  case run =>
    simp only [cc1__ffn_kernel_eq_skeleton]; unfold cc1__ffn_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- ACCUMULATE (the reduction coordinate is 1 or 2). As `runReset`, but the accumulator is found at the contents
    `xs` the point before left in it. -/
noncomputable def runAcc (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : ¬isLastK i)
    (x0 : Vec F S1024x1024 .bf16) (x1 : Vec F S1024x1024 .f32) (x2 : Vec F S1x1024 .f32) (xs : Vec F S1024x1024 .f32) :
    { LS : List (View.Piece (Elt F) S1024x1024 .f32) //
      ∀ (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__ffn_kernel i arg3 harg3 arg4 harg4 arg5 harg5 arg6 harg6 arg7 harg7) K } := by
  refine ⟨?_, fun xo E K => ?run⟩
  case run =>
    simp only [cc1__ffn_kernel_eq_skeleton]; unfold cc1__ffn_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- ACCUMULATE AND EMIT (the reduction coordinate is 3). The accumulator is found at `xs`; the output buffer, found at
    anything, is left holding its own listed writes. -/
noncomputable def runEmit (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : isLastK i)
    (x0 : Vec F S1024x1024 .bf16) (x1 : Vec F S1024x1024 .f32) (x2 : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__ffn_kernel i arg3 harg3 arg4 harg4 arg5 harg5 arg6 harg6 arg7 harg7) K } := by
  refine ⟨?_, ?_, fun E K => ?run⟩
  case run =>
    simp only [cc1__ffn_kernel_eq_skeleton]; unfold cc1__ffn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

/-! ## The listed writes read as the kernel's arithmetic -/

/-- The offsets of every load and store of the body: zero on both axes. -/
theorem zeroOff2 : (![0, 0] : Fin 2 → Nat) = fun _ => 0 := by funext a; fin_cases a <;> rfl

/-- After the reset case the accumulator reads the first partial product added to the zero block. -/
theorem runReset_canon (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : isFirstK i) (hc1 : ¬isLastK i)
    (x0 : Vec F S1024x1024 .bf16) (x1 : Vec F S1024x1024 .f32) (x2 : Vec F S1x1024 .f32) :
    View.canon (runReset c i arg3 harg3 arg4 harg4 arg5 harg5 arg6 harg6 arg7 harg7 hc0 hc1 x0 x1 x2).1 = k1_pay2 x0 x1 (k1_pay1 (F := F)) := by
  unfold runReset
  dsimp only
  sl_unfold_words
  rw [View.canon_cons_unit_zero (S := S1024x1024) zeroOff2]
  simp only [View.readAt_eq_ld, harg3.read_unread, harg4.read_unread, View.ld_unit_zero (S := S1024x1024) zeroOff2, View.readCov_unit_zero (S := S1024x1024) _ zeroOff2]

theorem runReset_cover (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : isFirstK i) (hc1 : ¬isLastK i)
    (x0 : Vec F S1024x1024 .bf16) (x1 : Vec F S1024x1024 .f32) (x2 : Vec F S1x1024 .f32) (y : S1024x1024.Idx) :
    ∃ pc ∈ (runReset c i arg3 harg3 arg4 harg4 arg5 harg5 arg6 harg6 arg7 harg7 hc0 hc1 x0 x1 x2).1, y ∈ pc.1.set :=
  View.cover_of_tiledL (runReset c i arg3 harg3 arg4 harg4 arg5 harg5 arg6 harg6 arg7 harg7 hc0 hc1 x0 x1 x2).1 S1024x1024.size (by sl_kernel_rfl) y

/-- After an accumulating case the accumulator reads the partial product added to what it held. -/
theorem runAcc_canon (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : ¬isLastK i)
    (x0 : Vec F S1024x1024 .bf16) (x1 : Vec F S1024x1024 .f32) (x2 : Vec F S1x1024 .f32) (xs : Vec F S1024x1024 .f32) :
    View.canon (runAcc c i arg3 harg3 arg4 harg4 arg5 harg5 arg6 harg6 arg7 harg7 hc0 hc1 x0 x1 x2 xs).1 = k1_pay2 x0 x1 xs := by
  unfold runAcc
  dsimp only
  sl_unfold_words
  rw [View.canon_unit_zero (S := S1024x1024) zeroOff2]
  simp only [View.readAt_eq_ld, harg3.read_unread, harg4.read_unread, harg7.read_unread, View.ld_unit_zero (S := S1024x1024) zeroOff2]

theorem runAcc_cover (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : ¬isLastK i)
    (x0 : Vec F S1024x1024 .bf16) (x1 : Vec F S1024x1024 .f32) (x2 : Vec F S1x1024 .f32) (xs : Vec F S1024x1024 .f32) (y : S1024x1024.Idx) :
    ∃ pc ∈ (runAcc c i arg3 harg3 arg4 harg4 arg5 harg5 arg6 harg6 arg7 harg7 hc0 hc1 x0 x1 x2 xs).1, y ∈ pc.1.set :=
  View.cover_of_tiledL (runAcc c i arg3 harg3 arg4 harg4 arg5 harg5 arg6 harg6 arg7 harg7 hc0 hc1 x0 x1 x2 xs).1 S1024x1024.size (by sl_kernel_rfl) y

/-- After the emitting case the accumulator reads the same, -/
theorem runEmit_canon_acc (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : isLastK i)
    (x0 : Vec F S1024x1024 .bf16) (x1 : Vec F S1024x1024 .f32) (x2 : Vec F S1x1024 .f32) (xs : Vec F S1024x1024 .f32) :
    View.canon (runEmit c i arg3 harg3 arg4 harg4 arg5 harg5 arg6 harg6 arg7 harg7 hc0 hc1 x0 x1 x2 xs).2.1 = k1_pay2 x0 x1 xs := by
  unfold runEmit
  dsimp only
  sl_unfold_words
  rw [View.canon_unit_zero (S := S1024x1024) zeroOff2]
  simp only [View.readAt_eq_ld, harg3.read_unread, harg4.read_unread, harg7.read_unread, View.ld_unit_zero (S := S1024x1024) zeroOff2]

theorem runEmit_cover_acc (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : isLastK i)
    (x0 : Vec F S1024x1024 .bf16) (x1 : Vec F S1024x1024 .f32) (x2 : Vec F S1x1024 .f32) (xs : Vec F S1024x1024 .f32) (y : S1024x1024.Idx) :
    ∃ pc ∈ (runEmit c i arg3 harg3 arg4 harg4 arg5 harg5 arg6 harg6 arg7 harg7 hc0 hc1 x0 x1 x2 xs).2.1, y ∈ pc.1.set :=
  View.cover_of_tiledL (runEmit c i arg3 harg3 arg4 harg4 arg5 harg5 arg6 harg6 arg7 harg7 hc0 hc1 x0 x1 x2 xs).2.1 S1024x1024.size (by sl_kernel_rfl) y

/-- and the output buffer reads the new accumulator with the bias row added to every row, rectified. -/
theorem runEmit_canon_out (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : isLastK i)
    (x0 : Vec F S1024x1024 .bf16) (x1 : Vec F S1024x1024 .f32) (x2 : Vec F S1x1024 .f32) (xs : Vec F S1024x1024 .f32) :
    View.canon (runEmit c i arg3 harg3 arg4 harg4 arg5 harg5 arg6 harg6 arg7 harg7 hc0 hc1 x0 x1 x2 xs).1 = k1_pay3 (k1_pay2 x0 x1 xs) x2 := by
  unfold runEmit
  dsimp only
  sl_unfold_words
  rw [View.canon_unit_zero (S := S1024x1024) zeroOff2]
  simp only [View.readAt_eq_ld, harg3.read_unread, harg4.read_unread, harg5.read_unread, harg7.read_unread, View.ld_unit_zero (S := S1024x1024) zeroOff2, View.ld_unit_zero (S := S1x1024) zeroOff2, View.readCov_unit_zero (S := S1024x1024) _ zeroOff2]

theorem runEmit_cover_out (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : isLastK i)
    (x0 : Vec F S1024x1024 .bf16) (x1 : Vec F S1024x1024 .f32) (x2 : Vec F S1x1024 .f32) (xs : Vec F S1024x1024 .f32) (y : S1024x1024.Idx) :
    ∃ pc ∈ (runEmit c i arg3 harg3 arg4 harg4 arg5 harg5 arg6 harg6 arg7 harg7 hc0 hc1 x0 x1 x2 xs).1, y ∈ pc.1.set :=
  View.cover_of_tiledL (runEmit c i arg3 harg3 arg4 harg4 arg5 harg5 arg6 harg6 arg7 harg7 hc0 hc1 x0 x1 x2 xs).1 S1024x1024.size (by sl_kernel_rfl) y

/-! ## What the accumulator and the output buffer hold after each point -/

/-- The accumulator after the body at position `n`: at a point whose reduction coordinate is 0 the partial product
    of the point's two blocks added to the zero block, elsewhere added to what the point before left. -/
def accOf (c : Dev nD) : (n : ℕ) → n < cfg1.N → Vec F S1024x1024 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accOf c n (Nat.lt_of_succ_lt hn))

/-- After the body at position `n`: what the output window's staging buffer holds where the body stores it (the
    accumulator with the bias row added to every row, rectified — read only at the points whose reduction coordinate
    is 3; elsewhere the window is idle and this component is not consulted), and what the accumulator holds. -/
def accAt1 (c : Dev nD) (n : ℕ) (hn : n < cfg1.N) : Vec F S1024x1024 .f32 × Vec F S1024x1024 .f32 :=
  (k1_pay3 (accOf V c n hn) (iblk1 V c 2 ⟨n, hn⟩), accOf V c n hn)

theorem accAt1_snd (c : Dev nD) (n : ℕ) (hn : n < cfg1.N) : (accAt1 V c n hn).2 = accOf V c n hn := rfl
theorem accAt1_fst (c : Dev nD) (n : ℕ) (hn : n < cfg1.N) :
    (accAt1 V c n hn).1 = k1_pay3 (accOf V c n hn) (iblk1 V c 2 ⟨n, hn⟩) := rfl

theorem accOf_reset (c : Dev nD) (t : Fin cfg1.N) (h : t.val % 4 = 0) :
    accOf V c t.val t.isLt = k1_pay2 (iblk1 V c 0 t) (iblk1 V c 1 t) (k1_pay1 (F := F)) := by
  obtain ⟨n, hn⟩ := t
  cases n with
  | zero => rfl
  | succ n => exact if_pos h

theorem accOf_step (c : Dev nD) (t : Fin cfg1.N) (h0 : ¬ t.val % 4 = 0) :
    accOf V c t.val t.isLt = k1_pay2 (iblk1 V c 0 t) (iblk1 V c 1 t) (accOf V c (t.val - 1) (Nat.lt_of_le_of_lt (Nat.sub_le _ _) t.isLt)) := by
  obtain ⟨n, hn⟩ := t
  cases n with
  | zero => exact absurd (Nat.zero_mod _) h0
  | succ n => exact if_neg h0

/-- At a point whose reduction coordinate is 0 the accumulator is the point's partial product over the zero block. -/
theorem accAt1_A (c : Dev nD) (t : Fin cfg1.N) (h : t.val % 4 = 0) :
    (accAt1 V c t.val t.isLt).2 = k1_pay2 (iblk1 V c 0 t) (iblk1 V c 1 t) (k1_pay1 (F := F)) :=
  accOf_reset V c t h

/-- Elsewhere it is the point's partial product over what the point before left. -/
theorem accAt1_B (c : Dev nD) (t : Fin cfg1.N) (h0 : ¬ t.val % 4 = 0) :
    (accAt1 V c t.val t.isLt).2 = k1_pay2 (iblk1 V c 0 t) (iblk1 V c 1 t) (accAt1 V c (t.val - 1) (Nat.lt_of_le_of_lt (Nat.sub_le _ _) t.isLt)).2 :=
  accOf_step V c t h0

/-- Where the output block is stored it is the accumulator with the bias row added, rectified. -/
theorem accAt1_out (c : Dev nD) (t : Fin cfg1.N) (h : t.val % 4 = 3) :
    (accAt1 V c t.val t.isLt).1 = k1_pay3 (accAt1 V c t.val t.isLt).2 (iblk1 V c 2 t) := rfl

/-! ## The invariant: the accumulator between points -/

/-- Before position `n`: before the first point the region's entry invariant (every scoped buffer at anything);
    afterwards the accumulator owned at what the point before left, the other kernel's staging buffers at anything,
    and the generator register at some state. -/
def PhiS (c : Dev nD) : (n : ℕ) → n ≤ cfg1.N → sProp 𝕄
  | 0, _ => Pipeline.ΦA spec1 c
  | n + 1, hn => iprop(besideOthers (F := F) c (owns (c : Thread nD τ) accM fullShare (accOf V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(besideOthers (F := F) c (owns (c : Thread nD τ) accM fullShare (accOf V c n hn)) ∗ (∃ r, prngReg c r)) := rfl

theorem PhiS_pos (c : Dev nD) (n : ℕ) (h : n ≤ cfg1.N) (hz : n ≠ 0) :
    PhiS V c n h = iprop(besideOthers (F := F) c (owns (c : Thread nD τ) accM fullShare (accOf V c (n - 1) (by omega))) ∗ (∃ r, prngReg c r)) := by
  cases n with
  | zero => exact absurd rfl hz
  | succ n => rfl

/-! ## The proof data of the region -/

/-- The arrays as the region finds them; after the body each input window's buffer at its block and the output
    window's at `accAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (accAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := rfl
theorem owed_eq1 (c : Dev nD) (t : Fin (cfg1.N + 1)) : (dat1 V c).owed t = 0 := rfl

theorem Phi_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (accAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The three input buffers hold their blocks; the point's position modulo 4 says which case
    runs; the invariant hands the body the accumulator (at anything at the first point, else at what the point before
    left) and takes it back at this point's contents; where the output block is not stored its buffer goes back as
    it was found; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  have hN : t.val < 128 := lt_of_lt_of_eq t.isLt (show cfg1.N = 128 from N_1)
  by_cases h0 : t.val % 4 = 0
  · have hc0 : isFirstK (grid1.coords t) := (isFirstK_iff t).mpr h0
    have hc1 : ¬isLastK (grid1.coords t) := fun h => by have := (isLastK_iff t).mp h; omega
    rw [Dat.leavesExact_idle (dat1 V c) 3 t (idle1_3 t hc1) (noFlush1_3 t hc1)]
    rw [accOf_reset V c t h0]
    by_cases hz : t.val = 0
    · rw [Phi_castSucc V c t, PhiS_zero V c _ _ hz, PhiA1_eq]
      iintro ⟨⟨⟨Ha, Hb, Hc, Hd, HS⟩, Hg⟩, Ho, ⟨%d0, H0⟩, ⟨%d1, H1⟩, ⟨%d2, H2⟩, ⟨%d3, H3⟩⟩
      iapply ((runReset c (grid1.coords t) _ _ _ _ _ _ _ _ _ _ hc0 hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro
          exact (View.read_writes_eq_canon _ _ _ (runReset_cover c _ _ _ _ _ _ _ _ _ _ _ _ _ _ _ _)).trans (runReset_canon c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [Phi_castSucc V c t, PhiS_pos V c _ _ hz]
      iintro ⟨⟨⟨Ha, Hb, Hc, Hd, HS⟩, Hg⟩, Ho, ⟨%d0, H0⟩, ⟨%d1, H1⟩, ⟨%d2, H2⟩, ⟨%d3, H3⟩⟩
      iapply ((runReset c (grid1.coords t) _ _ _ _ _ _ _ _ _ _ hc0 hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro
          exact (View.read_writes_eq_canon _ _ _ (runReset_cover c _ _ _ _ _ _ _ _ _ _ _ _ _ _ _ _)).trans (runReset_canon c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hc0 : ¬isFirstK (grid1.coords t) := fun h => h0 ((isFirstK_iff t).mp h)
    have hz : t.val ≠ 0 := fun e => h0 (by rw [e])
    rw [accOf_step V c t h0]
    rw [Phi_castSucc V c t, PhiS_pos V c _ _ hz]
    by_cases h1 : t.val % 4 = 3
    · have hc1 : isLastK (grid1.coords t) := (isLastK_iff t).mpr h1
      rw [show (dat1 V c).leavesExact 3 t = owns (c : Thread nD τ) (ms1_3 t) fullShare ((dat1 V c).after 3 t) from by
        unfold Dat.leavesExact; rw [live1_3 t hc1], after1_3, accAt1_fst, accOf_step V c t h0]
      iintro ⟨⟨⟨Ha, Hb, Hc, Hd, HS⟩, Hg⟩, Ho, ⟨%d0, H0⟩, ⟨%d1, H1⟩, ⟨%d2, H2⟩, ⟨%d3, H3⟩⟩
      iapply ((runEmit c (grid1.coords t) _ _ _ _ _ _ _ _ _ _ hc0 hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro
          exact (View.read_writes_eq_canon _ _ _ (runEmit_cover_acc c _ _ _ _ _ _ _ _ _ _ _ _ _ _ _ _ _)).trans (runEmit_canon_acc c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro
      exact (View.read_writes_eq_canon _ _ _ (runEmit_cover_out c _ _ _ _ _ _ _ _ _ _ _ _ _ _ _ _ _)).trans (runEmit_canon_out c _ _ _ _ _ _ _ _ _ _ _ _ _ _ _ _ _)
    · have hc1 : ¬isLastK (grid1.coords t) := fun h => h1 ((isLastK_iff t).mp h)
      rw [Dat.leavesExact_idle (dat1 V c) 3 t (idle1_3 t hc1) (noFlush1_3 t hc1)]
      iintro ⟨⟨⟨Ha, Hb, Hc, Hd, HS⟩, Hg⟩, Ho, ⟨%d0, H0⟩, ⟨%d1, H1⟩, ⟨%d2, H2⟩, ⟨%d3, H3⟩⟩
      iapply ((runAcc c (grid1.coords t) _ _ _ _ _ _ _ _ _ _ hc0 hc1 (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro
          exact (View.read_writes_eq_canon _ _ _ (runAcc_cover c _ _ _ _ _ _ _ _ _ _ _ _ _ _ _ _ _)).trans (runAcc_canon c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-! ## Entering and leaving the region -/

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After any point the invariant gives the entry invariant back: the accumulator's contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ha, Hb, Hc, Hd, HS⟩, Hg⟩
  isplitl [Ha Hb Hc Hd HS]
  · isplitl [Ha]; · iexact Ha
    isplitl [Hb]; · iexact Hb
    isplitl [Hc]; · iexact Hc
    isplitl [Hd]; · iexact Hd
    iexists _; iexact HS
  iexact Hg

/-- In particular after the last. -/
theorem hout1 (c : Dev nD) : (dat1 V c).Φ (Fin.last cfg1.N) ⊢ Pipeline.ΦA spec1 c :=
  Phi_out V c _ (by rw [Fin.val_last]; have : cfg1.N = 128 := N_1; omega)

end Cert.Kernel.Hand

end
-- ==== Proof.Bits.MainRun.lean ====
/-
  The whole program's run: @main is the normalisation region, a host reshape of the bias, and the matmul region. The
  buffer contents are followed through the three items from the launch memory, each region is entered from what the
  item before it left, and the launch theorem for a list of segments gives: every weakly fair execution terminates,
  nothing faults, and every unscoped buffer ends at the last boundary's contents. The frame (the arguments unchanged)
  and the result array's value are read off that.
-/
import proofs.«134123_j33732673143833_1_alg».proof.Proof.Bits.RegionNorm
import proofs.«134123_j33732673143833_1_alg».proof.Proof.Gen.Kernel.Regions
import proofs.«134123_j33732673143833_1_alg».proof.Proof.Bits.RegionFfn

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary of @main

@main is: the normalisation region, one host reshape of the bias to a row, the matmul region. The contents of
core `c`'s buffers are followed through these three items from the launch memory. -/

/-- At launch. -/
abbrev W0 : Dev nD → Valuation τ sig (Elt F) := fun c b => m (c, b)
/-- The same read at the TensorCore's references: what the normalisation region is entered with. -/
abbrev E0 : (c : Dev nD) → (b : Ref sig .tc) → Buf (Elt F) ((c : Thread nD τ).loc b) := fun c b => W0 m c b
/-- After the normalisation region: its arrays at what the write-backs leave, every other buffer as before. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem exit0_arr (c : Dev nD) (w : Fin cfg0.W) : (dat0 (E0 m) c).arrAt w cfg0.N = E1 m c (Pipeline.arrRef spec0 w) :=
  (W1_arr m c w).symm
theorem exit0_rest (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the host reshape. -/
abbrev W2 : Dev nD → Valuation τ sig (Elt F) := fun c => StableHlo.after hostOps1 (W1 m c)
/-- What the matmul region is entered with. -/
abbrev E2 : (c : Dev nD) → (b : Ref sig .tc) → Buf (Elt F) ((c : Thread nD τ).loc b) := fun c b => W2 m c b
/-- After the matmul region. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem exit1_arr (c : Dev nD) (w : Fin cfg1.W) : (dat1 (E2 m) c).arrAt w cfg1.N = E3 m c (Pipeline.arrRef spec1 w) :=
  (W3_arr m c w).symm
theorem exit1_rest (c : Dev nD) : ∀ b, b ∉ Finset.univ.image (Pipeline.arrRef spec1) → E3 m c b = E2 m c b :=
  fun b hb => W3_of_ne m c b fun w e => hb (Finset.mem_image.mpr ⟨w, Finset.mem_univ _, e⟩)

/-- The reshape writes the bias row only. -/
theorem W2_of (c : Dev nD) (r : Ref sig .tc) (h : r ∉ hostOps1_W) : W2 m c r = W1 m c r :=
  StableHlo.after_of_writes_sub hostOps1 _ hostOps1_writes h

/-! ### The arguments end as launched, and the result is the matmul region's output array -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of m c main_arg0 (by decide)
    _ = W0 m c (Proc.devRef .tc main_arg0) := (W1_arr m c 0).trans (((dat0 (E0 m) c).arrAt_in 0 rfl _).trans (A_eq0 (E0 m) c 0))
    _ = m ((c : Thread nD τ).loc main_arg0) := rfl

theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of m c main_arg1 (by decide)
    _ = W0 m c (Proc.devRef .tc main_arg1) := W1_of_ne m c main_arg1 (by decide)
    _ = m ((c : Thread nD τ).loc main_arg1) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 1).trans (((dat1 (E2 m) c).arrAt_in 1 rfl _).trans (A_eq1 (E2 m) c 1))
    _ = m ((c : Thread nD τ).loc main_arg1) := W2_main_arg1 m c

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of m c main_arg2 (by decide)
    _ = W0 m c (Proc.devRef .tc main_arg2) := W1_of_ne m c main_arg2 (by decide)
    _ = m ((c : Thread nD τ).loc main_arg2) := rfl

theorem W3_main_v2 (c : Dev nD) : W3 m c (Proc.devRef .tc main_v2) = (dat1 (E2 m) c).arrAt 3 cfg1.N := W3_arr m c 3

/-- The normalised array reaches the matmul region as the normalisation region left it. -/
theorem E2_main_v0 (c : Dev nD) : E2 m c main_v0 = (dat0 (E0 m) c).arrAt 1 cfg0.N :=
  (W2_of m c main_v0 (by decide)).trans (W1_arr m c 1)

/-- The bias row the matmul region is entered with is the bias argument recast as a `1 × 4096` row. -/
theorem E2_main_v1 (c : Dev nD) :
    E2 m c main_v1 = shapeCast S1x4096 (m ((c : Thread nD τ).loc main_arg2)) shapeCasts_S4096_S1x4096 := by
  show StableHlo.after hostOps1 (W1 m c) (Proc.devRef .tc main_v1) = _
  after_results
  rw [W1_of_ne m c main_arg2 (by decide)]
  rfl

/-! ## The proof data family and the thread state -/

/-- No pipeline has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)

/-- The host reshape as a segment from the contents after the first region. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tend (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The normalisation region: entered from every unscoped buffer at the launch contents, left at `W1`. Its arrays are
    split out of the unscoped buffers and put back at the exit contents; the generator register goes into the region's
    invariant and comes out; nothing is owed; the kernel has no semaphore of its own. -/
def regNorm : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region: entered from every unscoped buffer at `W2`, left at `W3`. Its invariant takes the scoped
    rest and the generator register at the first point and gives them back after the last, the accumulator's
    contents forgotten. -/
def regFfn : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun w => A_eq1 (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec1 c : sProp 𝕄) from by
      unfold Pipeline.ΦA
      iintro ⟨Hp, -, Hr⟩
      isplitl [Hr]; · iexact Hr
      iexact Hp).trans (hin1 (E2 m) c)
  hout c :=
    (hout1 (E2 m) c).trans (show (Pipeline.ΦA spec1 c : sProp 𝕄) ⊢ _ from by
      rw [Pipeline.ownSems0_none]
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (regNorm m), .host (hseg1 m), .region (regFfn m) ]

theorem main_run (c : Dev nD) : main (F := F) c = Pipeline.Seg.run (segs m) := (main_chain c).trans (by chain_rfl)

variable (ρ : Dev nD → PrngReg)

set_option backward.isDefEq.respectTransparency.types false in
/-- THE RUN. From any memory with zero counters, every weakly fair execution of @main terminates, nothing faulting, and
    every final memory holds each unscoped buffer of each core at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

/-- The run with the result named: the result array ends at the matmul region's output array, the arguments as launched. -/
theorem run_value : θ_run defs (onTc (τ := τ) (main (F := F))) ⟨m, fun _ => 0, ρ⟩ (fun r => ∀ c : Dev nD,
      r.2.mem ((c.tc : Thread nD τ).loc main_v2) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

end Cert.Kernel.Hand

end
-- ==== Proof.RegionNorm.lean ====
/-
  The first pallas_call, the row normalisation, as one pipeline region: what its body leaves in the output block
  at a grid point, the body's triple, the pipeline's proof data at the buffer contents `V` the region is entered
  from, and the body obligation. The grid has 32 points; point `t` reads rows `256 t … 256 t + 255` of the input
  and writes the same rows of the normalised array. The body keeps nothing between points.
-/
import proofs.«134123_j33732673143833_1_alg».proof.Proof.Gen.KernelIdeal.Launch
import proofs.«134123_j33732673143833_1_alg».proof.Proof.Gen.KernelIdeal.Skeleton
import proofs.«134123_j33732673143833_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body loads and stores through: the whole 256 × 4096 block. -/
abbrev rowsRect : Rect S256x4096 := Rect.unit (s := S256x4096) ![0, 0] S256x4096.size inb_S256x4096_S256x4096_0_0

/-- What the body leaves in the output block: the normalised rows of the input block, stored whole. -/
def normBlock (x0 : Vec F S256x4096 .f32) : Vec F S256x4096 .bf16 :=
  View.canon [⟨rowsRect, k0_pay1 (View.ld x0 rowsRect)⟩]

/-- The one store covers the block. -/
theorem normBlock_cover (p0 : Vec F S256x4096 .bf16) (y : S256x4096.Idx) :
    ∃ pc ∈ ([⟨rowsRect, p0⟩] : List (View.Piece (Elt F) S256x4096 .bf16)), y ∈ pc.1.set :=
  View.cover_of_tiled [⟨rowsRect, p0⟩] S256x4096.size (by rfl) y

set_option maxHeartbeats 1000000 in
/-- The body on whole staging memrefs, the input's at contents `x0` and the output's at anything, runs to the
    continuation holding the input's as it was and the output's at `normBlock x0`. -/
theorem norm_body (c : Dev nD) (E : Set ℕ) (i : grid0.Coords) (arg1 : Memref sig .tc .vmem S256x4096 .f32) (harg1 : arg1.IsWhole)
    (arg2 : Memref sig .tc .vmem S256x4096 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (normBlock x0)) -∗ K ⟨⟩))
      ⊢ wp frame (wpE (defs₀ (F := F)) Variants.none c none) E (cc0__l2norm_kernel i arg1 harg1 arg2 harg2) K := by
  simp only [cc0__l2norm_kernel_eq_skeleton]; unfold cc0__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (normBlock_cover _)

/-- The proof data of the region on core `c`: the arrays as the region finds them; after the body at point `t`
    the input's buffer at its block and the output's at the normalised block; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => normBlock (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = normBlock (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (norm_body c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.RegionFfn.lean ====
import proofs.«134123_j33732673143833_1_alg».proof.Proof.Gen.KernelIdeal.Launch
import proofs.«134123_j33732673143833_1_alg».proof.Proof.Gen.KernelIdeal.Skeleton
import proofs.«134123_j33732673143833_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second kernel of the program: the blocked matrix product with bias and rectifier

The grid is 8 × 4 × 4; point `t` has reduction coordinate `k = t % 4`. A scratch accumulator is reset at
`k = 0`, receives one partial product at every point, and at `k = 3` is read with the bias block into
the output block. -/

/-! ## The windows' blocks -/

/-- Window `w`'s block at point `t`, read off its array at the region-entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left-factor window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right-factor window's current staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window's current staging buffer holds its block at every point: where it is not fetched its block
    index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions of the body, in closed form -/

/-- "The reduction coordinate is 0": the accumulator is reset. -/
abbrev isFirstK (i : grid1.Coords) : Prop := (Scalar.cmpi .ne (Scalar.extui (Scalar.cmpi .eq (BitVec.ofNat 32 (i 2).val) 0#32)) 0#32) = 1#1
theorem isFirstK_iff : ∀ t : Fin cfg1.N, isFirstK (grid1.coords t) ↔ t.val % 4 = 0 :=
  (by decide +kernel : ∀ t : Fin grid1.N, isFirstK (grid1.coords t) ↔ t.val % 4 = 0)

/-- "The reduction coordinate is 3": the output block is stored. -/
abbrev isLastK (i : grid1.Coords) : Prop := k1_cond2 i = 1#1
theorem isLastK_iff : ∀ t : Fin cfg1.N, isLastK (grid1.coords t) ↔ t.val % 4 = 3 :=
  (by decide +kernel : ∀ t : Fin grid1.N, isLastK (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Where the output block is not stored the output window is idle, -/
theorem idle1_3 : ∀ t : Fin cfg1.N, ¬isLastK (grid1.coords t) → cfg1.idle 3 (grid1.coords t) = true := by decide +kernel
/-- and is not written back; -/
theorem noFlush1_3 : ∀ t : Fin cfg1.N, ¬isLastK (grid1.coords t) → (cfg1.win 3).flush t = false := by decide +kernel
/-- where it is stored the window is live. -/
theorem live1_3 : ∀ t : Fin cfg1.N, isLastK (grid1.coords t) → cfg1.idle 3 (grid1.coords t) = false := by decide +kernel

/-! ## The staging memrefs and the accumulator -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev accM : Memref sig .tc .vmem S1024x1024 .f32 := Memref.whole cc1_scratch0
abbrev accV : View sig .tc .vmem S1024x1024 .f32 := accM.view
/-- One staging buffer of the output window, through which its contents are stated. -/
abbrev outV : View sig .tc .vmem S1024x1024 .f32 := (Memref.whole cc1_stg3_0 : Memref sig .tc .vmem S1024x1024 .f32).view

/-- The other kernel's four staging buffers, each at some contents and carried through this region unread, beside
    a proposition `P` about the accumulator. -/
abbrev besideOthers (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ P)

/-- The region's entry invariant, with the accumulator as a memref owned at some contents. -/
theorem PhiA1_eq (c : Dev nD) :
    (Pipeline.ΦA spec1 c : sProp 𝕄)
      = iprop(besideOthers (F := F) c iprop(∃ d, owns (c : Thread nD τ) accM fullShare d) ∗ (∃ r, prngReg c r)) := by
  unfold Pipeline.ΦA; rw [scopedRest1_eq]; simp only [accM, owns_whole]; try rfl

/-! ## The body run on any whole memrefs, case by case: the pieces its stores leave are what the run finds -/

set_option maxHeartbeats 1000000 in
/-- RESET AND ACCUMULATE (the reduction coordinate is 0). From the three input buffers at their contents, the output
    buffer at contents `xo` that are handed back untouched, and the accumulator at anything, the body runs to the
    continuation with the inputs and the output buffer as they were and the accumulator holding the listed writes
    (last first). -/
noncomputable def runReset (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : isFirstK i) (hc1 : ¬isLastK i)
    (x0 : Vec F S1024x1024 .bf16) (x1 : Vec F S1024x1024 .f32) (x2 : Vec F S1x1024 .f32) :
    { LS : List (View.Piece (Elt F) S1024x1024 .f32) //
      ∀ (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__ffn_kernel i arg3 harg3 arg4 harg4 arg5 harg5 arg6 harg6 arg7 harg7) K } := by
  refine ⟨?_, fun xo E K => ?run⟩
  case run =>
    simp only [cc1__ffn_kernel_eq_skeleton]; unfold cc1__ffn_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- ACCUMULATE (the reduction coordinate is 1 or 2). As `runReset`, but the accumulator is found at the contents
    `xs` the point before left in it. -/
noncomputable def runAcc (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : ¬isLastK i)
    (x0 : Vec F S1024x1024 .bf16) (x1 : Vec F S1024x1024 .f32) (x2 : Vec F S1x1024 .f32) (xs : Vec F S1024x1024 .f32) :
    { LS : List (View.Piece (Elt F) S1024x1024 .f32) //
      ∀ (xo : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__ffn_kernel i arg3 harg3 arg4 harg4 arg5 harg5 arg6 harg6 arg7 harg7) K } := by
  refine ⟨?_, fun xo E K => ?run⟩
  case run =>
    simp only [cc1__ffn_kernel_eq_skeleton]; unfold cc1__ffn_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- ACCUMULATE AND EMIT (the reduction coordinate is 3). The accumulator is found at `xs`; the output buffer, found at
    anything, is left holding its own listed writes. -/
noncomputable def runEmit (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : isLastK i)
    (x0 : Vec F S1024x1024 .bf16) (x1 : Vec F S1024x1024 .f32) (x2 : Vec F S1x1024 .f32) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__ffn_kernel i arg3 harg3 arg4 harg4 arg5 harg5 arg6 harg6 arg7 harg7) K } := by
  refine ⟨?_, ?_, fun E K => ?run⟩
  case run =>
    simp only [cc1__ffn_kernel_eq_skeleton]; unfold cc1__ffn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

/-! ## The listed writes read as the kernel's arithmetic -/

/-- The offsets of every load and store of the body: zero on both axes. -/
theorem zeroOff2 : (![0, 0] : Fin 2 → Nat) = fun _ => 0 := by funext a; fin_cases a <;> rfl

/-- After the reset case the accumulator reads the first partial product added to the zero block. -/
theorem runReset_canon (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : isFirstK i) (hc1 : ¬isLastK i)
    (x0 : Vec F S1024x1024 .bf16) (x1 : Vec F S1024x1024 .f32) (x2 : Vec F S1x1024 .f32) :
    View.canon (runReset c i arg3 harg3 arg4 harg4 arg5 harg5 arg6 harg6 arg7 harg7 hc0 hc1 x0 x1 x2).1 = k1_pay2 x0 x1 (k1_pay1 (F := F)) := by
  unfold runReset
  dsimp only
  sl_unfold_words
  rw [View.canon_cons_unit_zero (S := S1024x1024) zeroOff2]
  simp only [View.readAt_eq_ld, harg3.read_unread, harg4.read_unread, View.ld_unit_zero (S := S1024x1024) zeroOff2, View.readCov_unit_zero (S := S1024x1024) _ zeroOff2]

theorem runReset_cover (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : isFirstK i) (hc1 : ¬isLastK i)
    (x0 : Vec F S1024x1024 .bf16) (x1 : Vec F S1024x1024 .f32) (x2 : Vec F S1x1024 .f32) (y : S1024x1024.Idx) :
    ∃ pc ∈ (runReset c i arg3 harg3 arg4 harg4 arg5 harg5 arg6 harg6 arg7 harg7 hc0 hc1 x0 x1 x2).1, y ∈ pc.1.set :=
  View.cover_of_tiledL (runReset c i arg3 harg3 arg4 harg4 arg5 harg5 arg6 harg6 arg7 harg7 hc0 hc1 x0 x1 x2).1 S1024x1024.size (by sl_kernel_rfl) y

/-- After an accumulating case the accumulator reads the partial product added to what it held. -/
theorem runAcc_canon (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : ¬isLastK i)
    (x0 : Vec F S1024x1024 .bf16) (x1 : Vec F S1024x1024 .f32) (x2 : Vec F S1x1024 .f32) (xs : Vec F S1024x1024 .f32) :
    View.canon (runAcc c i arg3 harg3 arg4 harg4 arg5 harg5 arg6 harg6 arg7 harg7 hc0 hc1 x0 x1 x2 xs).1 = k1_pay2 x0 x1 xs := by
  unfold runAcc
  dsimp only
  sl_unfold_words
  rw [View.canon_unit_zero (S := S1024x1024) zeroOff2]
  simp only [View.readAt_eq_ld, harg3.read_unread, harg4.read_unread, harg7.read_unread, View.ld_unit_zero (S := S1024x1024) zeroOff2]

theorem runAcc_cover (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : ¬isLastK i)
    (x0 : Vec F S1024x1024 .bf16) (x1 : Vec F S1024x1024 .f32) (x2 : Vec F S1x1024 .f32) (xs : Vec F S1024x1024 .f32) (y : S1024x1024.Idx) :
    ∃ pc ∈ (runAcc c i arg3 harg3 arg4 harg4 arg5 harg5 arg6 harg6 arg7 harg7 hc0 hc1 x0 x1 x2 xs).1, y ∈ pc.1.set :=
  View.cover_of_tiledL (runAcc c i arg3 harg3 arg4 harg4 arg5 harg5 arg6 harg6 arg7 harg7 hc0 hc1 x0 x1 x2 xs).1 S1024x1024.size (by sl_kernel_rfl) y

/-- After the emitting case the accumulator reads the same, -/
theorem runEmit_canon_acc (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : isLastK i)
    (x0 : Vec F S1024x1024 .bf16) (x1 : Vec F S1024x1024 .f32) (x2 : Vec F S1x1024 .f32) (xs : Vec F S1024x1024 .f32) :
    View.canon (runEmit c i arg3 harg3 arg4 harg4 arg5 harg5 arg6 harg6 arg7 harg7 hc0 hc1 x0 x1 x2 xs).2.1 = k1_pay2 x0 x1 xs := by
  unfold runEmit
  dsimp only
  sl_unfold_words
  rw [View.canon_unit_zero (S := S1024x1024) zeroOff2]
  simp only [View.readAt_eq_ld, harg3.read_unread, harg4.read_unread, harg7.read_unread, View.ld_unit_zero (S := S1024x1024) zeroOff2]

theorem runEmit_cover_acc (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : isLastK i)
    (x0 : Vec F S1024x1024 .bf16) (x1 : Vec F S1024x1024 .f32) (x2 : Vec F S1x1024 .f32) (xs : Vec F S1024x1024 .f32) (y : S1024x1024.Idx) :
    ∃ pc ∈ (runEmit c i arg3 harg3 arg4 harg4 arg5 harg5 arg6 harg6 arg7 harg7 hc0 hc1 x0 x1 x2 xs).2.1, y ∈ pc.1.set :=
  View.cover_of_tiledL (runEmit c i arg3 harg3 arg4 harg4 arg5 harg5 arg6 harg6 arg7 harg7 hc0 hc1 x0 x1 x2 xs).2.1 S1024x1024.size (by sl_kernel_rfl) y

/-- and the output buffer reads the new accumulator with the bias row added to every row, rectified. -/
theorem runEmit_canon_out (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : isLastK i)
    (x0 : Vec F S1024x1024 .bf16) (x1 : Vec F S1024x1024 .f32) (x2 : Vec F S1x1024 .f32) (xs : Vec F S1024x1024 .f32) :
    View.canon (runEmit c i arg3 harg3 arg4 harg4 arg5 harg5 arg6 harg6 arg7 harg7 hc0 hc1 x0 x1 x2 xs).1 = k1_pay3 (k1_pay2 x0 x1 xs) x2 := by
  unfold runEmit
  dsimp only
  sl_unfold_words
  rw [View.canon_unit_zero (S := S1024x1024) zeroOff2]
  simp only [View.readAt_eq_ld, harg3.read_unread, harg4.read_unread, harg5.read_unread, harg7.read_unread, View.ld_unit_zero (S := S1024x1024) zeroOff2, View.ld_unit_zero (S := S1x1024) zeroOff2, View.readCov_unit_zero (S := S1024x1024) _ zeroOff2]

theorem runEmit_cover_out (c : Dev nD) (i : grid1.Coords) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬isFirstK i) (hc1 : isLastK i)
    (x0 : Vec F S1024x1024 .bf16) (x1 : Vec F S1024x1024 .f32) (x2 : Vec F S1x1024 .f32) (xs : Vec F S1024x1024 .f32) (y : S1024x1024.Idx) :
    ∃ pc ∈ (runEmit c i arg3 harg3 arg4 harg4 arg5 harg5 arg6 harg6 arg7 harg7 hc0 hc1 x0 x1 x2 xs).1, y ∈ pc.1.set :=
  View.cover_of_tiledL (runEmit c i arg3 harg3 arg4 harg4 arg5 harg5 arg6 harg6 arg7 harg7 hc0 hc1 x0 x1 x2 xs).1 S1024x1024.size (by sl_kernel_rfl) y

/-! ## What the accumulator and the output buffer hold after each point -/

/-- The accumulator after the body at position `n`: at a point whose reduction coordinate is 0 the partial product
    of the point's two blocks added to the zero block, elsewhere added to what the point before left. -/
def accOf (c : Dev nD) : (n : ℕ) → n < cfg1.N → Vec F S1024x1024 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accOf c n (Nat.lt_of_succ_lt hn))

/-- After the body at position `n`: what the output window's staging buffer holds where the body stores it (the
    accumulator with the bias row added to every row, rectified — read only at the points whose reduction coordinate
    is 3; elsewhere the window is idle and this component is not consulted), and what the accumulator holds. -/
def accAt1 (c : Dev nD) (n : ℕ) (hn : n < cfg1.N) : Vec F S1024x1024 .f32 × Vec F S1024x1024 .f32 :=
  (k1_pay3 (accOf V c n hn) (iblk1 V c 2 ⟨n, hn⟩), accOf V c n hn)

theorem accAt1_snd (c : Dev nD) (n : ℕ) (hn : n < cfg1.N) : (accAt1 V c n hn).2 = accOf V c n hn := rfl
theorem accAt1_fst (c : Dev nD) (n : ℕ) (hn : n < cfg1.N) :
    (accAt1 V c n hn).1 = k1_pay3 (accOf V c n hn) (iblk1 V c 2 ⟨n, hn⟩) := rfl

theorem accOf_reset (c : Dev nD) (t : Fin cfg1.N) (h : t.val % 4 = 0) :
    accOf V c t.val t.isLt = k1_pay2 (iblk1 V c 0 t) (iblk1 V c 1 t) (k1_pay1 (F := F)) := by
  obtain ⟨n, hn⟩ := t
  cases n with
  | zero => rfl
  | succ n => exact if_pos h

theorem accOf_step (c : Dev nD) (t : Fin cfg1.N) (h0 : ¬ t.val % 4 = 0) :
    accOf V c t.val t.isLt = k1_pay2 (iblk1 V c 0 t) (iblk1 V c 1 t) (accOf V c (t.val - 1) (Nat.lt_of_le_of_lt (Nat.sub_le _ _) t.isLt)) := by
  obtain ⟨n, hn⟩ := t
  cases n with
  | zero => exact absurd (Nat.zero_mod _) h0
  | succ n => exact if_neg h0

/-- At a point whose reduction coordinate is 0 the accumulator is the point's partial product over the zero block. -/
theorem accAt1_A (c : Dev nD) (t : Fin cfg1.N) (h : t.val % 4 = 0) :
    (accAt1 V c t.val t.isLt).2 = k1_pay2 (iblk1 V c 0 t) (iblk1 V c 1 t) (k1_pay1 (F := F)) :=
  accOf_reset V c t h

/-- Elsewhere it is the point's partial product over what the point before left. -/
theorem accAt1_B (c : Dev nD) (t : Fin cfg1.N) (h0 : ¬ t.val % 4 = 0) :
    (accAt1 V c t.val t.isLt).2 = k1_pay2 (iblk1 V c 0 t) (iblk1 V c 1 t) (accAt1 V c (t.val - 1) (Nat.lt_of_le_of_lt (Nat.sub_le _ _) t.isLt)).2 :=
  accOf_step V c t h0

/-- Where the output block is stored it is the accumulator with the bias row added, rectified. -/
theorem accAt1_out (c : Dev nD) (t : Fin cfg1.N) (h : t.val % 4 = 3) :
    (accAt1 V c t.val t.isLt).1 = k1_pay3 (accAt1 V c t.val t.isLt).2 (iblk1 V c 2 t) := rfl

/-! ## The invariant: the accumulator between points -/

/-- Before position `n`: before the first point the region's entry invariant (every scoped buffer at anything);
    afterwards the accumulator owned at what the point before left, the other kernel's staging buffers at anything,
    and the generator register at some state. -/
def PhiS (c : Dev nD) : (n : ℕ) → n ≤ cfg1.N → sProp 𝕄
  | 0, _ => Pipeline.ΦA spec1 c
  | n + 1, hn => iprop(besideOthers (F := F) c (owns (c : Thread nD τ) accM fullShare (accOf V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(besideOthers (F := F) c (owns (c : Thread nD τ) accM fullShare (accOf V c n hn)) ∗ (∃ r, prngReg c r)) := rfl

theorem PhiS_pos (c : Dev nD) (n : ℕ) (h : n ≤ cfg1.N) (hz : n ≠ 0) :
    PhiS V c n h = iprop(besideOthers (F := F) c (owns (c : Thread nD τ) accM fullShare (accOf V c (n - 1) (by omega))) ∗ (∃ r, prngReg c r)) := by
  cases n with
  | zero => exact absurd rfl hz
  | succ n => rfl

/-! ## The proof data of the region -/

/-- The arrays as the region finds them; after the body each input window's buffer at its block and the output
    window's at `accAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (accAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := rfl
theorem owed_eq1 (c : Dev nD) (t : Fin (cfg1.N + 1)) : (dat1 V c).owed t = 0 := rfl

theorem Phi_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (accAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The three input buffers hold their blocks; the point's position modulo 4 says which case
    runs; the invariant hands the body the accumulator (at anything at the first point, else at what the point before
    left) and takes it back at this point's contents; where the output block is not stored its buffer goes back as
    it was found; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  have hN : t.val < 128 := lt_of_lt_of_eq t.isLt (show cfg1.N = 128 from N_1)
  by_cases h0 : t.val % 4 = 0
  · have hc0 : isFirstK (grid1.coords t) := (isFirstK_iff t).mpr h0
    have hc1 : ¬isLastK (grid1.coords t) := fun h => by have := (isLastK_iff t).mp h; omega
    rw [Dat.leavesExact_idle (dat1 V c) 3 t (idle1_3 t hc1) (noFlush1_3 t hc1)]
    rw [accOf_reset V c t h0]
    by_cases hz : t.val = 0
    · rw [Phi_castSucc V c t, PhiS_zero V c _ _ hz, PhiA1_eq]
      iintro ⟨⟨⟨Ha, Hb, Hc, Hd, HS⟩, Hg⟩, Ho, ⟨%d0, H0⟩, ⟨%d1, H1⟩, ⟨%d2, H2⟩, ⟨%d3, H3⟩⟩
      iapply ((runReset c (grid1.coords t) _ _ _ _ _ _ _ _ _ _ hc0 hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro
          exact (View.read_writes_eq_canon _ _ _ (runReset_cover c _ _ _ _ _ _ _ _ _ _ _ _ _ _ _ _)).trans (runReset_canon c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [Phi_castSucc V c t, PhiS_pos V c _ _ hz]
      iintro ⟨⟨⟨Ha, Hb, Hc, Hd, HS⟩, Hg⟩, Ho, ⟨%d0, H0⟩, ⟨%d1, H1⟩, ⟨%d2, H2⟩, ⟨%d3, H3⟩⟩
      iapply ((runReset c (grid1.coords t) _ _ _ _ _ _ _ _ _ _ hc0 hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro
          exact (View.read_writes_eq_canon _ _ _ (runReset_cover c _ _ _ _ _ _ _ _ _ _ _ _ _ _ _ _)).trans (runReset_canon c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hc0 : ¬isFirstK (grid1.coords t) := fun h => h0 ((isFirstK_iff t).mp h)
    have hz : t.val ≠ 0 := fun e => h0 (by rw [e])
    rw [accOf_step V c t h0]
    rw [Phi_castSucc V c t, PhiS_pos V c _ _ hz]
    by_cases h1 : t.val % 4 = 3
    · have hc1 : isLastK (grid1.coords t) := (isLastK_iff t).mpr h1
      rw [show (dat1 V c).leavesExact 3 t = owns (c : Thread nD τ) (ms1_3 t) fullShare ((dat1 V c).after 3 t) from by
        unfold Dat.leavesExact; rw [live1_3 t hc1], after1_3, accAt1_fst, accOf_step V c t h0]
      iintro ⟨⟨⟨Ha, Hb, Hc, Hd, HS⟩, Hg⟩, Ho, ⟨%d0, H0⟩, ⟨%d1, H1⟩, ⟨%d2, H2⟩, ⟨%d3, H3⟩⟩
      iapply ((runEmit c (grid1.coords t) _ _ _ _ _ _ _ _ _ _ hc0 hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro
          exact (View.read_writes_eq_canon _ _ _ (runEmit_cover_acc c _ _ _ _ _ _ _ _ _ _ _ _ _ _ _ _ _)).trans (runEmit_canon_acc c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro
      exact (View.read_writes_eq_canon _ _ _ (runEmit_cover_out c _ _ _ _ _ _ _ _ _ _ _ _ _ _ _ _ _)).trans (runEmit_canon_out c _ _ _ _ _ _ _ _ _ _ _ _ _ _ _ _ _)
    · have hc1 : ¬isLastK (grid1.coords t) := fun h => h1 ((isLastK_iff t).mp h)
      rw [Dat.leavesExact_idle (dat1 V c) 3 t (idle1_3 t hc1) (noFlush1_3 t hc1)]
      iintro ⟨⟨⟨Ha, Hb, Hc, Hd, HS⟩, Hg⟩, Ho, ⟨%d0, H0⟩, ⟨%d1, H1⟩, ⟨%d2, H2⟩, ⟨%d3, H3⟩⟩
      iapply ((runAcc c (grid1.coords t) _ _ _ _ _ _ _ _ _ _ hc0 hc1 (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Ha Hb Hc Hd HS Hg]
      · isplitl [Ha Hb Hc Hd HS]
        · isplitl [Ha]; · iexact Ha
          isplitl [Hb]; · iexact Hb
          isplitl [Hc]; · iexact Hc
          isplitl [Hd]; · iexact Hd
          unfold owns; iexists _; isplitr
          swap; · iexact HS
          ipureintro
          exact (View.read_writes_eq_canon _ _ _ (runAcc_cover c _ _ _ _ _ _ _ _ _ _ _ _ _ _ _ _ _)).trans (runAcc_canon c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body V c t

/-! ## Entering and leaving the region -/

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After any point the invariant gives the entry invariant back: the accumulator's contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ha, Hb, Hc, Hd, HS⟩, Hg⟩
  isplitl [Ha Hb Hc Hd HS]
  · isplitl [Ha]; · iexact Ha
    isplitl [Hb]; · iexact Hb
    isplitl [Hc]; · iexact Hc
    isplitl [Hd]; · iexact Hd
    iexists _; iexact HS
  iexact Hg

/-- In particular after the last. -/
theorem hout1 (c : Dev nD) : (dat1 V c).Φ (Fin.last cfg1.N) ⊢ Pipeline.ΦA spec1 c :=
  Phi_out V c _ (by rw [Fin.val_last]; have : cfg1.N = 128 := N_1; omega)

end Cert.KernelIdeal.Hand

end
-- ==== Proof.MainRun.lean ====
/-
  The whole program's run: @main is the normalisation region, a host reshape of the bias, and the matmul region. The
  buffer contents are followed through the three items from the launch memory, each region is entered from what the
  item before it left, and the launch theorem for a list of segments gives: every weakly fair execution terminates,
  nothing faults, and every unscoped buffer ends at the last boundary's contents. The frame (the arguments unchanged)
  and the result array's value are read off that.
-/
import proofs.«134123_j33732673143833_1_alg».proof.Proof.RegionNorm
import proofs.«134123_j33732673143833_1_alg».proof.Proof.Gen.KernelIdeal.Regions
import proofs.«134123_j33732673143833_1_alg».proof.Proof.RegionFfn

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary of @main

@main is: the normalisation region, one host reshape of the bias to a row, the matmul region. The contents of
core `c`'s buffers are followed through these three items from the launch memory. -/

/-- At launch. -/
abbrev W0 : Dev nD → Valuation τ sig (Elt F) := fun c b => m (c, b)
/-- The same read at the TensorCore's references: what the normalisation region is entered with. -/
abbrev E0 : (c : Dev nD) → (b : Ref sig .tc) → Buf (Elt F) ((c : Thread nD τ).loc b) := fun c b => W0 m c b
/-- After the normalisation region: its arrays at what the write-backs leave, every other buffer as before. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem exit0_arr (c : Dev nD) (w : Fin cfg0.W) : (dat0 (E0 m) c).arrAt w cfg0.N = E1 m c (Pipeline.arrRef spec0 w) :=
  (W1_arr m c w).symm
theorem exit0_rest (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the host reshape. -/
abbrev W2 : Dev nD → Valuation τ sig (Elt F) := fun c => StableHlo.after hostOps1 (W1 m c)
/-- What the matmul region is entered with. -/
abbrev E2 : (c : Dev nD) → (b : Ref sig .tc) → Buf (Elt F) ((c : Thread nD τ).loc b) := fun c b => W2 m c b
/-- After the matmul region. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev E3 : (c : Dev nD) → (b : Ref sig .tc) → Buf (Elt F) ((c : Thread nD τ).loc b) := fun c b => W3 m c b
theorem exit1_arr (c : Dev nD) (w : Fin cfg1.W) : (dat1 (E2 m) c).arrAt w cfg1.N = E3 m c (Pipeline.arrRef spec1 w) :=
  (W3_arr m c w).symm
theorem exit1_rest (c : Dev nD) : ∀ b, b ∉ Finset.univ.image (Pipeline.arrRef spec1) → E3 m c b = E2 m c b :=
  fun b hb => W3_of_ne m c b fun w e => hb (Finset.mem_image.mpr ⟨w, Finset.mem_univ _, e⟩)

/-- The reshape writes the bias row only. -/
theorem W2_of (c : Dev nD) (r : Ref sig .tc) (h : r ∉ hostOps1_W) : W2 m c r = W1 m c r :=
  StableHlo.after_of_writes_sub hostOps1 _ hostOps1_writes h

/-! ### The arguments end as launched, and the result is the matmul region's output array -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of m c main_arg0 (by decide)
    _ = W0 m c (Proc.devRef .tc main_arg0) := (W1_arr m c 0).trans (((dat0 (E0 m) c).arrAt_in 0 rfl _).trans (A_eq0 (E0 m) c 0))
    _ = m ((c : Thread nD τ).loc main_arg0) := rfl

theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of m c main_arg1 (by decide)
    _ = W0 m c (Proc.devRef .tc main_arg1) := W1_of_ne m c main_arg1 (by decide)
    _ = m ((c : Thread nD τ).loc main_arg1) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 1).trans (((dat1 (E2 m) c).arrAt_in 1 rfl _).trans (A_eq1 (E2 m) c 1))
    _ = m ((c : Thread nD τ).loc main_arg1) := W2_main_arg1 m c

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of m c main_arg2 (by decide)
    _ = W0 m c (Proc.devRef .tc main_arg2) := W1_of_ne m c main_arg2 (by decide)
    _ = m ((c : Thread nD τ).loc main_arg2) := rfl

theorem W3_main_v2 (c : Dev nD) : W3 m c (Proc.devRef .tc main_v2) = (dat1 (E2 m) c).arrAt 3 cfg1.N := W3_arr m c 3

/-- The normalised array reaches the matmul region as the normalisation region left it. -/
theorem E2_main_v0 (c : Dev nD) : E2 m c main_v0 = (dat0 (E0 m) c).arrAt 1 cfg0.N :=
  (W2_of m c main_v0 (by decide)).trans (W1_arr m c 1)

/-- The bias row the matmul region is entered with is the bias argument recast as a `1 × 4096` row. -/
theorem E2_main_v1 (c : Dev nD) :
    E2 m c main_v1 = shapeCast S1x4096 (m ((c : Thread nD τ).loc main_arg2)) shapeCasts_S4096_S1x4096 := by
  show StableHlo.after hostOps1 (W1 m c) (Proc.devRef .tc main_v1) = _
  after_results
  rw [W1_of_ne m c main_arg2 (by decide)]
  rfl

/-! ## The proof data family and the thread state -/

/-- No pipeline has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)

/-- The host reshape as a segment from the contents after the first region. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tend (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The normalisation region: entered from every unscoped buffer at the launch contents, left at `W1`. Its arrays are
    split out of the unscoped buffers and put back at the exit contents; the generator register goes into the region's
    invariant and comes out; nothing is owed; the kernel has no semaphore of its own. -/
def regNorm : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region: entered from every unscoped buffer at `W2`, left at `W3`. Its invariant takes the scoped
    rest and the generator register at the first point and gives them back after the last, the accumulator's
    contents forgotten. -/
def regFfn : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun w => A_eq1 (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show _ ⊢ (Pipeline.ΦA spec1 c : sProp 𝕄) from by
      unfold Pipeline.ΦA
      iintro ⟨Hp, -, Hr⟩
      isplitl [Hr]; · iexact Hr
      iexact Hp).trans (hin1 (E2 m) c)
  hout c :=
    (hout1 (E2 m) c).trans (show (Pipeline.ΦA spec1 c : sProp 𝕄) ⊢ _ from by
      rw [Pipeline.ownSems0_none]
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (regNorm m), .host (hseg1 m), .region (regFfn m) ]

theorem main_run (c : Dev nD) : main (F := F) c = Pipeline.Seg.run (segs m) := (main_chain c).trans (by chain_rfl)

variable (ρ : Dev nD → PrngReg)

set_option backward.isDefEq.respectTransparency.types false in
/-- THE RUN. From any memory with zero counters, every weakly fair execution of @main terminates, nothing faulting, and
    every final memory holds each unscoped buffer of each core at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

/-- The run with the result named: the result array ends at the matmul region's output array, the arguments as launched. -/
theorem run_value : θ_run defs (onTc (τ := τ) (main (F := F))) ⟨m, fun _ => 0, ρ⟩ (fun r => ∀ c : Dev nD,
      r.2.mem ((c.tc : Thread nD τ).loc main_v2) = (dat1 (E2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (W3_main_v2 m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

end Cert.KernelIdeal.Hand

end
-- ==== Proof.Spec.lean ====
/-
  The function both programs compute, index by index on the extended reals: each row of `x` is divided by its
  Euclidean norm plus ε, the normalised rows are multiplied with the rows of `W` (a contraction over the 4096
  input features), the bias is added and the result is clamped below at zero. No program is mentioned here.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- ε: the extended real the f32 pattern nearest to 1e-8 denotes. It is never evaluated: both programs carry the same word. -/
def eps : EReal := Ideal.ofBits .f32 0x322BCC77#32

/-- The divisor of row `r`: the square root of the row's sum of squares, plus ε. -/
def den (x : (⟨2, ![8192, 4096]⟩ : Shape).Idx → EReal) (r : Fin 8192) : EReal :=
  Ideal.sqrt (∑ j : Fin 4096, x (ix2 r j) * x (ix2 r j)) + eps

/-- Entry `(r, k)` of the normalised input. -/
def xn (x : (⟨2, ![8192, 4096]⟩ : Shape).Idx → EReal) (r : Fin 8192) (k : Fin 4096) : EReal :=
  Ideal.div (x (ix2 r k)) (den x r)

/-- Entry `(r, o)` of the result: the contraction of normalised row `r` with row `o` of `W`, plus the bias at `o`,
    clamped below at zero. -/
def out (x : (⟨2, ![8192, 4096]⟩ : Shape).Idx → EReal) (W : (⟨2, ![4096, 4096]⟩ : Shape).Idx → EReal)
    (b : (⟨1, ![4096]⟩ : Shape).Idx → EReal) (r : Fin 8192) (o : Fin 4096) : EReal :=
  max ((∑ k : Fin 4096, xn x r k * W (ix2 o k)) + b (ix1 o)) 0

/-- The result array. -/
def G (x : (⟨2, ![8192, 4096]⟩ : Shape).Idx → EReal) (W : (⟨2, ![4096, 4096]⟩ : Shape).Idx → EReal)
    (b : (⟨1, ![4096]⟩ : Shape).Idx → EReal) : (⟨2, ![8192, 4096]⟩ : Shape).Idx → EReal :=
  fun i => out x W b ⟨(i 0).val, (i 0).isLt⟩ ⟨(i 1).val, (i 1).isLt⟩

theorem G_ix2 (x : (⟨2, ![8192, 4096]⟩ : Shape).Idx → EReal) (W : (⟨2, ![4096, 4096]⟩ : Shape).Idx → EReal)
    (b : (⟨1, ![4096]⟩ : Shape).Idx → EReal) (r : Fin 8192) (o : Fin 4096) : G x W b (ix2 r o) = out x W b r o := rfl

/-- A sum over 4096 features is the sum of its four consecutive blocks of 1024, added in order from zero: addition on
    the extended reals is commutative and associative, so the grouping does not matter. -/
theorem sum_four_blocks (f : Fin 4096 → EReal) :
    ∑ k : Fin 4096, f k
      = (((0 + ∑ i : Fin 1024, f ⟨0 * 1024 + i.val, by omega⟩) + ∑ i : Fin 1024, f ⟨1 * 1024 + i.val, by omega⟩)
          + ∑ i : Fin 1024, f ⟨2 * 1024 + i.val, by omega⟩) + ∑ i : Fin 1024, f ⟨3 * 1024 + i.val, by omega⟩ := by
  have e : ∑ k : Fin 4096, f k = ∑ p : Fin 4 × Fin 1024, f ((finProdFinEquiv : Fin 4 × Fin 1024 ≃ Fin 4096) p) :=
    (Equiv.sum_comp (finProdFinEquiv : Fin 4 × Fin 1024 ≃ Fin 4096) f).symm
  have h : ∀ (a : Fin 4) (i : Fin 1024) (hlt : a.val * 1024 + i.val < 4096),
      f ((finProdFinEquiv : Fin 4 × Fin 1024 ≃ Fin 4096) (a, i)) = f ⟨a.val * 1024 + i.val, hlt⟩ := fun a i hlt =>
    congrArg f (Fin.ext (by rw [finProdFinEquiv_apply_val]; show i.val + 1024 * a.val = a.val * 1024 + i.val; omega))
  rw [e, Fintype.sum_prod_type, Fin.sum_univ_four, zero_add]
  refine congrArg₂ (· + ·) (congrArg₂ (· + ·) (congrArg₂ (· + ·) ?_ ?_) ?_) ?_ <;>
    exact Finset.sum_congr rfl fun i _ => h _ i _

end Cert.Spec

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.ValueNorm.lean ====
/-
  The row normalisation's output array as one function of the input array. The normalised block, read at (p, q) of a
  256 × 4096 block x0, is x0(p,q) / (sqrt (Σ_j x0(p,j)·x0(p,j)) + ε): the lane sum is the plain sum over the row, the
  column of divisors is broadcast back along the features, and the narrowing to bf16 is the identity on the extended
  reals. Grid point t reads rows 256 t … 256 t + 255 of x and writes the same rows of the result, so its block is
  block t of the array (r, k) ↦ xn x r k; the 32 blocks tile the 8192 rows (row r lies in block r / 256), hence after
  the last point the output array is that function everywhere.
-/
import proofs.«134123_j33732673143833_1_alg».proof.Proof.RegionNorm
import proofs.«134123_j33732673143833_1_alg».proof.Proof.Spec
import proofs.«134123_j33732673143833_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The payload at an index -/

/-- Entry (p, q) of the normalised block: the entry divided by its row's Euclidean norm plus ε. -/
theorem norm_pay_apply (x0 : Vec Ideal S256x4096 .f32) (p : Fin 256) (q : Fin 4096) :
    (k0_pay1 (F := Ideal) x0) (ValueIdx.ix2 p q)
      = Ideal.div (x0 (ValueIdx.ix2 p q))
          (Ideal.sqrt (∑ j : Fin 4096, x0 (ValueIdx.ix2 p j) * x0 (ValueIdx.ix2 p j)) + Cert.Spec.eps) := by
  unfold k0_pay1
  refine congrArg (Ideal.div (x0 (ix2 p q))) ?_
  refine (Keepdims.broadcastTo_a1_ab_apply _ broadcasts_S256x1_S256x4096 p q).trans ?_
  refine congrArg (fun z => Ideal.sqrt z + Cert.Spec.eps) ?_
  refine (Keepdims.shapeCast_a_a1_apply _ shapeCasts_S256_S256x1 p 0).trans ?_
  exact Keepdims.laneSum_apply (mulf x0 x0) 0x00000000#32 reduces_S256x4096_S256 (.inl rfl) rfl p

/-- A block whose row p is row r of the array x: its normalised entry (p, q) is the specification's xn x r q. -/
theorem norm_pay_of_row (x : S8192x4096.Idx → EReal) (x0 : Vec Ideal S256x4096 .f32) (p : Fin 256) (r : Fin 8192)
    (hrow : ∀ k : Fin 4096, x0 (ix2 p k) = x (ix2 r k)) (q : Fin 4096) :
    (k0_pay1 (F := Ideal) x0) (ix2 p q) = Cert.Spec.xn x r q := by
  rw [norm_pay_apply]
  unfold Cert.Spec.xn Cert.Spec.den
  simp only [hrow]

/-! ## Where the blocks lie -/

theorem zero_offsets : (![0, 0] : Fin 2 → Nat) = fun _ => 0 := funext fun a => by fin_cases a <;> rfl

/-- Both windows' block index at point t is (t, 0): block t is rows 256 t … 256 t + 255 and all 4096 columns. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point t, at (p, k), is the input array at (256 t + p, k). -/
theorem in_block_apply (c : Dev nD) (t : Fin cfg0.N) (p : Fin 256) (k : Fin 4096) (r : Fin 8192)
    (hr : r.val = 256 * t.val + p.val) :
    (iblk0 V c 0 t : Vec Ideal S256x4096 .f32) (ix2 p k) = (V c main_arg0 : S8192x4096.Idx → EReal) (ix2 r k) := by
  obtain ⟨e0, e1, -, -⟩ := block_index t
  unfold iblk0
  rw [View.read_apply]
  show V c main_arg0 _ = V c main_arg0 _
  congr 1
  funext a
  apply Fin.ext
  match a with
  | ⟨0, _⟩ => show win0_0.index t (0 : Fin 2) * 256 + 1 * p.val = r.val; rw [e0, hr]; omega
  | ⟨1, _⟩ => show win0_0.index t (1 : Fin 2) * 4096 + 1 * k.val = k.val; rw [e1]; omega

/-- The normalised array: entry (r, k) is xn x r k. -/
abbrev xnArr (x : S8192x4096.Idx → EReal) : S8192x4096.Idx → EReal :=
  fun i => Cert.Spec.xn x ⟨(i 0).val, (i 0).isLt⟩ ⟨(i 1).val, (i 1).isLt⟩

/-! ## What a point writes back, and the array after the last point -/

/-- What point t writes back is block t of the normalised array. -/
theorem norm_flushed (c : Dev nD) (t : Fin cfg0.N) :
    (dat0 (F := Ideal) V c).flushed 1 t = ((cfg0.win 1).blk t).view.read (Elt Ideal) (xnArr (V c main_arg0)) := by
  show (cfg0.win 1).cut (grid0.coords t) ((dat0 V c).after 1 t) = _
  rw [after0_1]
  unfold normBlock
  rw [View.canon_unit_zero zero_offsets]
  simp only [View.ld_unit_zero (S := S256x4096) zero_offsets]
  obtain ⟨-, -, e2, e3⟩ := block_index t
  have hN : cfg0.N = 32 := N_0
  have ht : t.val < 32 := hN ▸ t.isLt
  funext j
  obtain ⟨p, q, rfl⟩ : ∃ (p : Fin 256) (q : Fin 4096), j = ix2 p q := ⟨j 0, j 1, eq_ix2 (n0 := 256) (n1 := 4096) j⟩
  show k0_pay1 (iblk0 V c 0 t) (ix2 p q) = xnArr (V c main_arg0) (((cfg0.win 1).blk t).view.emb (ix2 p q))
  refine (norm_pay_of_row (V c main_arg0) (iblk0 V c 0 t) p ⟨256 * t.val + p.val, by have := p.isLt; omega⟩
    (fun k => in_block_apply V c t p k _ rfl) q).trans ?_
  show Cert.Spec.xn (V c main_arg0) _ _ = Cert.Spec.xn (V c main_arg0) _ _
  refine congrArg₂ (Cert.Spec.xn (V c main_arg0)) (Fin.ext ?_) (Fin.ext ?_)
  · show 256 * t.val + p.val = win0_1.index t (0 : Fin 2) * 256 + 1 * p.val
    rw [e2]; omega
  · show q.val = win0_1.index t (1 : Fin 2) * 4096 + 1 * q.val
    rw [e3]; omega

/-- An index of the array lies in point t's block iff each coordinate is in the block's range on its axis. -/
theorem mem_out_block (t : Fin cfg0.N) (i : S8192x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v0).slice (win0_1.rect t)).set ↔ _
  rw [View.set_slice_whole, Rect.mem_set_unit]
  exact Iff.rfl

/-- Every index of the array is in the block of the point its row divided by 256 names. -/
theorem out_cover (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  have hN : cfg0.N = 32 := N_0
  have hlt : (i 0).val / 256 < cfg0.N := by rw [hN]; omega
  obtain ⟨-, -, e2, e3⟩ := block_index ⟨(i 0).val / 256, hlt⟩
  refine ⟨⟨(i 0).val / 256, hlt⟩, flush0_1 _, ?_⟩
  rw [mem_out_block]
  intro a
  match a with
  | ⟨0, _⟩ =>
    show win0_1.index ⟨(i 0).val / 256, hlt⟩ (0 : Fin 2) * 256 ≤ (i 0).val
      ∧ (i 0).val < win0_1.index ⟨(i 0).val / 256, hlt⟩ (0 : Fin 2) * 256 + 256
    rw [e2]
    show (i 0).val / 256 * 256 ≤ (i 0).val ∧ (i 0).val < (i 0).val / 256 * 256 + 256
    omega
  | ⟨1, _⟩ =>
    show win0_1.index ⟨(i 0).val / 256, hlt⟩ (1 : Fin 2) * 4096 ≤ (i 1).val
      ∧ (i 1).val < win0_1.index ⟨(i 0).val / 256, hlt⟩ (1 : Fin 2) * 4096 + 4096
    rw [e3]
    omega

/-- After the last point the output array is the normalised input, index by index. -/
theorem norm_final (c : Dev nD) :
    ((dat0 (F := Ideal) V c).arrAt 1 cfg0.N : S8192x4096.Idx → EReal)
      = fun i => Cert.Spec.xn (V c main_arg0) ⟨(i 0).val, (i 0).isLt⟩ ⟨(i 1).val, (i 1).isLt⟩ :=
  (dat0 V c).arrAt_eq_of_cover 1 (xnArr (V c main_arg0)) (fun t _ => norm_flushed V c t) out_cover

end Cert.KernelIdeal.HandValue

end
-- ==== Proof.PayloadsFfn.lean ====
/-
  The three pure values the body of the matrix-product kernel stores, each read at ONE entry on the extended reals.
  A block is 1024 × 1024. The reset value is the zero block. The update adds to the running block, at entry (p, q),
  the contraction of row p of the input block with row q of the weight block over their 1024 columns (the weight is
  used transposed: both operands contract their second axis). The flushed value at (p, q) is the running block plus
  the bias row at q, clamped below at zero.
-/
import proofs.«134123_j33732673143833_1_alg».proof.Proof.Gen.KernelIdeal.Skeleton
import proofs.«134123_j33732673143833_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Idealize.ShloMosaic Idealize.ShloMosaic.ValueIdx

/-! ## The reset value -/

/-- Every entry of the block the accumulator is reset to is zero. -/
theorem zero_pay_apply (i : S1024x1024.Idx) : (k1_pay1 (F := Ideal)) i = 0 := by
  unfold k1_pay1
  refine (congrFun (shapeCast_self _ _) i).trans ?_
  exact Ideal.ofBits_zero_f32

/-! ## The block product: which entries of the two operands meet

At output entry `j` and contraction position `k` the left operand is read at (row of `j`, `k`) and the right operand at
(column of `j`, `k`): the non-contracted axis of each operand is its axis 0, the contracted one its axis 1. -/

/-- The left operand's row is the output's row. -/
theorem inputEntry_row (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- The left operand's column is the contraction position. -/
theorem inputEntry_col (i : S1024x1024.Idx) (k : dot_S1024x1024_S1024x1024_S1024x1024_1_1_0_0_n_n.contr.Idx) :
    (dot_S1024x1024_S1024x1024_S1024x1024_1_1_0_0_n_n.lhsIdx i k 1).val = (k ⟨0, by decide⟩).val :=
  dot_S1024x1024_S1024x1024_S1024x1024_1_1_0_0_n_n.lhsIdx_val_of_single rfl i k
/-- The right operand's row is the output's column. -/
theorem weightEntry_row (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- The right operand's column is the contraction position. -/
theorem weightEntry_col (i : S1024x1024.Idx) (k : dot_S1024x1024_S1024x1024_S1024x1024_1_1_0_0_n_n.contr.Idx) :
    (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-- The product of two blocks into the zero block, at entry (p, q): row p of the left block against row q of the right
    block, summed over the 1024 columns. -/
theorem blockProduct_apply (a : FVec Ideal S1024x1024 .bf16) (w : FVec Ideal S1024x1024 .bf16) (p q : Fin 1024) :
    (matmul dot_S1024x1024_S1024x1024_S1024x1024_1_1_0_0_n_n none a w (constant (F := Ideal) S1024x1024 .f32 0x00000000#32)) (ix2 p q)
      = ∑ i : Fin 1024, a (ix2 p i) * w (ix2 q i) := by
  refine (Ideal.matmul_constant_zero_apply dot_S1024x1024_S1024x1024_S1024x1024_1_1_0_0_n_n none a w (ix2 p q)).trans ?_
  rw [← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun ax => Fin.ext (by
    match ax with
    | ⟨0, _⟩ => exact inputEntry_row _ _
    | ⟨1, _⟩ => exact (inputEntry_col _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun ax => Fin.ext (by
    match ax with
    | ⟨0, _⟩ => exact weightEntry_row _ _
    | ⟨1, _⟩ => exact (weightEntry_col _ _).trans hk)
  rw [el, er]

/-! ## The update -/

/-- The accumulator's update at entry (p, q): the running value plus the block product's entry. A change of float
    format is the identity on the extended reals, so the weight block enters as it is. -/
theorem acc_pay_apply (a : Vec Ideal S1024x1024 .bf16) (w : Vec Ideal S1024x1024 .f32) (s : Vec Ideal S1024x1024 .f32)
    (p q : Fin 1024) :
    (k1_pay2 (F := Ideal) a w s) (ix2 p q) = s (ix2 p q) + ∑ i : Fin 1024, a (ix2 p i) * w (ix2 q i) := by
  unfold k1_pay2
  refine (congrFun (shapeCast_self _ _) (ix2 p q)).trans ?_
  refine congrArg (s (ix2 p q) + ·) ?_
  refine (congrArg (fun l : FVec Ideal S1024x1024 .bf16 =>
    (matmul dot_S1024x1024_S1024x1024_S1024x1024_1_1_0_0_n_n none l (truncf .bf16 (w : FVec Ideal S1024x1024 .f32) bitsLt_bf16_f32)
      (constant (F := Ideal) S1024x1024 .f32 0x00000000#32)) (ix2 p q))
    (shapeCast_self (a : FVec Ideal S1024x1024 .bf16) shapeCasts_S1024x1024_S1024x1024)).trans ?_
  exact blockProduct_apply a (truncf .bf16 (w : FVec Ideal S1024x1024 .f32) bitsLt_bf16_f32) p q

/-! ## The flushed value -/

/-- The flushed block at entry (p, q): the running value plus the bias row at q, clamped below at zero. -/
theorem out_pay_apply (s : Vec Ideal S1024x1024 .f32) (bb : Vec Ideal S1x1024 .f32) (p q : Fin 1024) :
    (k1_pay3 (F := Ideal) s bb) (ix2 p q) = max (s (ix2 p q) + bb (ix2 (0 : Fin 1) q)) 0 := by
  unfold k1_pay3
  refine (maximumf_apply _ _ (ix2 p q)).trans ?_
  refine congrArg₂ max ?_ Ideal.ofBits_zero_f32
  refine congrArg (s (ix2 p q) + ·) ?_
  refine (broadcastTo_1b_ab_apply _ broadcasts_S1x1024_S1024x1024 p q).trans ?_
  exact congrFun (shapeCast_self (bb : FVec Ideal S1x1024 .f32) shapeCasts_S1x1024_S1x1024) (ix2 (0 : Fin 1) q)

end Cert.KernelIdeal.HandValue

end
-- ==== Proof.ValueFfn.lean ====
/-
  The second kernel's result array as ONE function of the three arrays it is entered with.

  The grid is 8 × 4 × 4: point t has row-block I = t / 16, column-block J = (t / 4) % 4 and reduction step K = t % 4.
  At point t the kernel holds the 1024 × 1024 block (I, K) of the normalised input, the block (J, K) of the weight and
  the block (0, J) of the bias row. A running block is reset at K = 0 and receives, at every step, the product of the
  input block with the transposed weight block; at K = 3 the running block plus the bias row, clamped below at zero, is
  written to block (I, J) of the result.

  So entry (r, o) of the result, with r = 1024 I + p and o = 1024 J + q, is reached through the four points
  16 I + 4 J + K, K = 0 … 3: the running block's entry (p, q) is (((0 + S₀) + S₁) + S₂) + S₃, where S_K is the sum over
  the K-th run of 1024 features of input(r, ·) · weight(o, ·); the four runs make up all 4096 features, so this is the
  full contraction. Every entry of the result lies in exactly such a block, hence the whole array is that function.
-/
import proofs.«134123_j33732673143833_1_alg».proof.Proof.Gen.KernelIdeal.Launch
import proofs.«134123_j33732673143833_1_alg».proof.Proof.Gen.KernelIdeal.Skeleton
import proofs.«134123_j33732673143833_1_alg».proof.Proof.Gen.KernelIdeal.Points
import proofs.«134123_j33732673143833_1_alg».proof.Proof.Spec
import proofs.«134123_j33732673143833_1_alg».proof.Proof.PayloadsFfn
import proofs.«134123_j33732673143833_1_alg».proof.Proof.RegionFfn
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The arrays and the blocks, at their literal shapes -/

/-- The normalised input, 8192 × 4096. -/
abbrev xarr (c : Dev nD) : Vec Ideal S8192x4096 .bf16 := V c main_v0
/-- The weight, 4096 × 4096 (row o holds the weights of output feature o). -/
abbrev warr (c : Dev nD) : Vec Ideal S4096x4096 .f32 := V c main_arg1
/-- The bias, as one row of 4096. -/
abbrev barr (c : Dev nD) : Vec Ideal S1x4096 .f32 := V c main_v1
/-- The input block held at point `t`. -/
abbrev xblk (c : Dev nD) (t : Fin cfg1.N) : Vec Ideal S1024x1024 .bf16 := iblk1 V c 0 t
/-- The weight block held at point `t`. -/
abbrev wblk (c : Dev nD) (t : Fin cfg1.N) : Vec Ideal S1024x1024 .f32 := iblk1 V c 1 t
/-- The bias block held at point `t`. -/
abbrev bblk (c : Dev nD) (t : Fin cfg1.N) : Vec Ideal S1x1024 .f32 := iblk1 V c 2 t

/-! ## Which block each window holds at a point -/

/-- At point `t`: the input window is at block (t / 16, t % 4), the weight window at ((t / 4) % 4, t % 4), the bias window
    at (0, (t / 4) % 4) and the result window at (t / 16, (t / 4) % 4). Decided over the 128 points. -/
theorem blockIndex_facts : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-! ## A block's entry is the array's entry: block index × 1024 + the coordinate inside the block -/

/-- Entry (y0, y1) of the input block at `t` is entry (1024 (t / 16) + y0, 1024 (t % 4) + y1) of the input. -/
theorem xblk_apply (c : Dev nD) (t : Fin cfg1.N) (y0 y1 : Fin 1024) (r : Fin 8192) (k : Fin 4096)
    (hr : r.val = 1024 * (t.val / 16) + y0.val) (hk : k.val = 1024 * (t.val % 4) + y1.val) :
    xblk V c t (ix2 y0 y1) = xarr V c (ix2 r k) := by
  obtain ⟨e0, e1, -⟩ := blockIndex_facts t
  show V c main_v0 (((cfg1.win 0).blk t).view.emb (ix2 y0 y1)) = V c main_v0 (ix2 r k)
  refine congrArg (V c main_v0) (funext fun a => Fin.ext ?_)
  match a with
  | ⟨0, _⟩ => show win1_0.index t (0 : Fin 2) * 1024 + 1 * y0.val = r.val; rw [e0, hr]; omega
  | ⟨1, _⟩ => show win1_0.index t (1 : Fin 2) * 1024 + 1 * y1.val = k.val; rw [e1, hk]; omega

/-- Entry (y0, y1) of the weight block at `t` is entry (1024 ((t / 4) % 4) + y0, 1024 (t % 4) + y1) of the weight. -/
theorem wblk_apply (c : Dev nD) (t : Fin cfg1.N) (y0 y1 : Fin 1024) (o : Fin 4096) (k : Fin 4096)
    (ho : o.val = 1024 * (t.val / 4 % 4) + y0.val) (hk : k.val = 1024 * (t.val % 4) + y1.val) :
    wblk V c t (ix2 y0 y1) = warr V c (ix2 o k) := by
  obtain ⟨-, -, e2, e3, -⟩ := blockIndex_facts t
  show V c main_arg1 (((cfg1.win 1).blk t).view.emb (ix2 y0 y1)) = V c main_arg1 (ix2 o k)
  refine congrArg (V c main_arg1) (funext fun a => Fin.ext ?_)
  match a with
  | ⟨0, _⟩ => show win1_1.index t (0 : Fin 2) * 1024 + 1 * y0.val = o.val; rw [e2, ho]; omega
  | ⟨1, _⟩ => show win1_1.index t (1 : Fin 2) * 1024 + 1 * y1.val = k.val; rw [e3, hk]; omega

/-- Entry (0, y1) of the bias block at `t` is entry (0, 1024 ((t / 4) % 4) + y1) of the bias row. -/
theorem bblk_apply (c : Dev nD) (t : Fin cfg1.N) (y1 : Fin 1024) (o : Fin 4096)
    (ho : o.val = 1024 * (t.val / 4 % 4) + y1.val) :
    bblk V c t (ix2 (0 : Fin 1) y1) = barr V c (ix2 (0 : Fin 1) o) := by
  obtain ⟨-, -, -, -, e4, e5, -⟩ := blockIndex_facts t
  show V c main_v1 (((cfg1.win 2).blk t).view.emb (ix2 (0 : Fin 1) y1)) = V c main_v1 (ix2 (0 : Fin 1) o)
  refine congrArg (V c main_v1) (funext fun a => Fin.ext ?_)
  match a with
  | ⟨0, _⟩ => show win1_2.index t (0 : Fin 2) * 1 + 1 * 0 = 0; rw [e4]
  | ⟨1, _⟩ => show win1_2.index t (1 : Fin 2) * 1024 + 1 * y1.val = o.val; rw [e5, ho]; omega

/-! ## The running block over the four steps of a group -/

/-- The product of the two blocks held at point `t`, at entry (p, q). -/
abbrev blockDot (c : Dev nD) (t : Fin cfg1.N) (p q : Fin 1024) : EReal :=
  ∑ i : Fin 1024, xblk V c t (ix2 p i) * wblk V c t (ix2 q i)

/-- At a first step (K = 0) the running block is the zero block plus the point's product. -/
theorem running_first (c : Dev nD) (n : ℕ) (hn : n < cfg1.N) (h : n % 4 = 0) (p q : Fin 1024) :
    (accAt1 V c n hn).2 (ix2 p q) = 0 + blockDot V c ⟨n, hn⟩ p q := by
  refine (congrFun (accAt1_A V c ⟨n, hn⟩ h) (ix2 p q)).trans ?_
  refine (acc_pay_apply (xblk V c ⟨n, hn⟩) (wblk V c ⟨n, hn⟩) (k1_pay1 (F := Ideal)) p q).trans ?_
  exact congrArg (· + blockDot V c ⟨n, hn⟩ p q) (zero_pay_apply (ix2 p q))

/-- At a later step it is what the point before left plus the point's product. -/
theorem running_succ (c : Dev nD) (n : ℕ) (hn : n + 1 < cfg1.N) (h0 : ¬ (n + 1) % 4 = 0) (p q : Fin 1024) :
    (accAt1 V c (n + 1) hn).2 (ix2 p q)
      = (accAt1 V c n (Nat.lt_of_succ_lt hn)).2 (ix2 p q) + blockDot V c ⟨n + 1, hn⟩ p q := by
  refine (congrFun (accAt1_B V c ⟨n + 1, hn⟩ h0) (ix2 p q)).trans ?_
  exact acc_pay_apply (xblk V c ⟨n + 1, hn⟩) (wblk V c ⟨n + 1, hn⟩) (accAt1 V c n (Nat.lt_of_succ_lt hn)).2 p q

/-- The point's product, in the arrays: at step K = `kk` it is the sum over the `kk`-th run of 1024 features of
    input(r, ·) · weight(o, ·), where r and o are the entry's row and column in the result. -/
theorem blockDot_eq (c : Dev nD) (t : Fin cfg1.N) (p q : Fin 1024) (R : Fin 8192) (O : Fin 4096) (kk : ℕ) (hkk : kk < 4)
    (hR : R.val = 1024 * (t.val / 16) + p.val) (hO : O.val = 1024 * (t.val / 4 % 4) + q.val) (hk : t.val % 4 = kk) :
    blockDot V c t p q
      = ∑ i : Fin 1024, xarr V c (ix2 R ⟨kk * 1024 + i.val, by have := i.isLt; omega⟩)
          * warr V c (ix2 O ⟨kk * 1024 + i.val, by have := i.isLt; omega⟩) :=
  Finset.sum_congr rfl fun i _ => congrArg₂ (· * ·)
    (xblk_apply V c t p i R _ hR (by show kk * 1024 + i.val = _; omega))
    (wblk_apply V c t q i O _ hO (by show kk * 1024 + i.val = _; omega))

/-- After the last step of a group (K = 3) the running block's entry is the full contraction over the 4096 features:
    the three points before are the same (I, J) at K = 2, 1, 0, and the four runs of 1024 make up the whole sum. -/
theorem running_group (c : Dev nD) (t : Fin cfg1.N) (h3 : t.val % 4 = 3) (p q : Fin 1024) (R : Fin 8192) (O : Fin 4096)
    (hR : R.val = 1024 * (t.val / 16) + p.val) (hO : O.val = 1024 * (t.val / 4 % 4) + q.val) :
    (accAt1 V c t.val t.isLt).2 (ix2 p q) = ∑ k : Fin 4096, xarr V c (ix2 R k) * warr V c (ix2 O k) := by
  have hN : cfg1.N = 128 := N_1
  obtain ⟨m, hm⟩ : ∃ m, t.val = m + 1 + 1 + 1 := ⟨t.val - 3, by omega⟩
  obtain ⟨tv, tlt⟩ := t
  dsimp only at hm h3 hR hO ⊢
  subst hm
  rw [Cert.Spec.sum_four_blocks (fun k => xarr V c (ix2 R k) * warr V c (ix2 O k))]
  refine (running_succ V c (m + 1 + 1) tlt (by omega) p q).trans ?_
  refine congrArg₂ (· + ·) ?_ (blockDot_eq V c ⟨m + 1 + 1 + 1, tlt⟩ p q R O 3 (by omega) (by dsimp only; omega) (by dsimp only; omega) (by dsimp only; omega))
  refine (running_succ V c (m + 1) (by omega) (by omega) p q).trans ?_
  refine congrArg₂ (· + ·) ?_ (blockDot_eq V c ⟨m + 1 + 1, by omega⟩ p q R O 2 (by omega) (by dsimp only; omega) (by dsimp only; omega) (by dsimp only; omega))
  refine (running_succ V c m (by omega) (by omega) p q).trans ?_
  refine congrArg₂ (· + ·) ?_ (blockDot_eq V c ⟨m + 1, by omega⟩ p q R O 1 (by omega) (by dsimp only; omega) (by dsimp only; omega) (by dsimp only; omega))
  refine (running_first V c m (by omega) (by omega) p q).trans ?_
  exact congrArg (0 + ·) (blockDot_eq V c ⟨m, by omega⟩ p q R O 0 (by omega) (by dsimp only; omega) (by dsimp only; omega) (by dsimp only; omega))

/-! ## The block written at the last step of a group -/

/-- Entry (p, q) of the block written at a point with K = 3: the full contraction plus the bias at the entry's column,
    clamped below at zero. -/
theorem outBlock_apply (c : Dev nD) (t : Fin cfg1.N) (h3 : t.val % 4 = 3) (p q : Fin 1024) (R : Fin 8192) (O : Fin 4096)
    (hR : R.val = 1024 * (t.val / 16) + p.val) (hO : O.val = 1024 * (t.val / 4 % 4) + q.val) :
    (accAt1 V c t.val t.isLt).1 (ix2 p q)
      = max ((∑ k : Fin 4096, xarr V c (ix2 R k) * warr V c (ix2 O k)) + barr V c (ix2 (0 : Fin 1) O)) 0 := by
  refine (congrFun (accAt1_out V c t h3) (ix2 p q)).trans ?_
  refine (out_pay_apply (accAt1 V c t.val t.isLt).2 (bblk V c t) p q).trans ?_
  exact congrArg₂ (fun u v => max (u + v) 0) (running_group V c t h3 p q R O hR hO) (bblk_apply V c t q O hO)

/-! ## The result array -/

/-- The function the result array ends holding, of three arrays at their literal shapes: at (r, o) the contraction of
    row r of the first with row o of the second, plus the third's entry at o, clamped below at zero. -/
def ffnOf (x : Vec Ideal S8192x4096 .bf16) (w : Vec Ideal S4096x4096 .f32) (b : Vec Ideal S1x4096 .f32) :
    S8192x4096.Idx → EReal := fun i =>
  max ((∑ k : Fin 4096, x (ix2 ⟨(i 0).val, (i 0).isLt⟩ k) * w (ix2 ⟨(i 1).val, (i 1).isLt⟩ k))
    + b (ix2 (0 : Fin 1) ⟨(i 1).val, (i 1).isLt⟩)) 0

/-- What a point with K = 3 writes back is its block of that function of the arrays the kernel is entered with. -/
theorem flushed_eq (c : Dev nD) (t : Fin cfg1.N) (hf : (cfg1.win 3).flush t = true) :
    (dat1 V c).flushed 3 t
      = ((cfg1.win 3).blk t).view.read (Elt Ideal) (ffnOf (xarr V c) (warr V c) (barr V c)) := by
  have h3 : t.val % 4 = 3 := (flush1_3 t).mp hf
  obtain ⟨-, -, -, -, -, -, e6, e7⟩ := blockIndex_facts t
  show (cfg1.win 3).cut (grid1.coords t) ((dat1 V c).after 3 t) = _
  rw [after1_3]
  funext y
  obtain ⟨p, q, rfl⟩ : ∃ (p q : Fin 1024), y = ix2 p q := ⟨y 0, y 1, eq_ix2 (n0 := 1024) (n1 := 1024) y⟩
  show (accAt1 V c t.val t.isLt).1 (ix2 p q)
    = ffnOf (xarr V c) (warr V c) (barr V c) (((cfg1.win 3).blk t).view.emb (ix2 p q))
  refine outBlock_apply V c t h3 p q _ _ ?_ ?_
  · show win1_3.index t (0 : Fin 2) * 1024 + 1 * p.val = _; rw [e6]; omega
  · show win1_3.index t (1 : Fin 2) * 1024 + 1 * q.val = _; rw [e7]; omega

/-- An entry of the result lies in the block of point `t` iff each coordinate lies in the block's range on its axis. -/
theorem mem_outBlock (t : Fin cfg1.N) (i : S8192x4096.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v2).slice (win1_3.rect t)).set ↔ _
  rw [View.set_slice_whole, Rect.mem_set_unit]
  exact Iff.rfl

/-- Every entry (r, o) of the result lies in the block written at the point 16 (r / 1024) + 4 (o / 1024) + 3. -/
theorem covered (i : S8192x4096.Idx) :
    ∃ t : Fin cfg1.N, (cfg1.win 3).flush t = true ∧ i ∈ ((cfg1.win 3).blk t).view.set := by
  have hN : cfg1.N = 128 := N_1
  have hi0 : (i 0).val < 8192 := (i 0).isLt
  have hi1 : (i 1).val < 4096 := (i 1).isLt
  have hlt : 16 * ((i 0).val / 1024) + 4 * ((i 1).val / 1024) + 3 < cfg1.N := by omega
  obtain ⟨-, -, -, -, -, -, e6, e7⟩ := blockIndex_facts ⟨16 * ((i 0).val / 1024) + 4 * ((i 1).val / 1024) + 3, hlt⟩
  refine ⟨⟨16 * ((i 0).val / 1024) + 4 * ((i 1).val / 1024) + 3, hlt⟩, (flush1_3 _).mpr (by dsimp only; omega), ?_⟩
  rw [mem_outBlock]
  intro a
  match a with
  | ⟨0, _⟩ =>
    show win1_3.index _ (0 : Fin 2) * 1024 ≤ (i 0).val ∧ (i 0).val < win1_3.index _ (0 : Fin 2) * 1024 + 1024
    rw [e6]; dsimp only; omega
  | ⟨1, _⟩ =>
    show win1_3.index _ (1 : Fin 2) * 1024 ≤ (i 1).val ∧ (i 1).val < win1_3.index _ (1 : Fin 2) * 1024 + 1024
    rw [e7]; dsimp only; omega

/-- The result array after the run, as the function of the arrays the kernel is entered with. -/
theorem ffn_final_of (c : Dev nD) :
    (dat1 V c).arrAt 3 cfg1.N = ffnOf (xarr V c) (warr V c) (barr V c) :=
  (dat1 V c).arrAt_eq_of_cover 3 (ffnOf (xarr V c) (warr V c) (barr V c)) (fun t hf => flushed_eq V c t hf) covered

/-- The same, index by index: entry (r, o) is the contraction of input row r with weight row o over the 4096 features,
    plus the bias at o, clamped below at zero. -/
theorem ffn_final (c : Dev nD) :
    ((dat1 V c).arrAt 3 cfg1.N : S8192x4096.Idx → EReal) = fun i =>
      max ((∑ k : Fin 4096, xarr V c (ix2 ⟨(i 0).val, (i 0).isLt⟩ k) * warr V c (ix2 ⟨(i 1).val, (i 1).isLt⟩ k))
        + barr V c (ix2 (0 : Fin 1) ⟨(i 1).val, (i 1).isLt⟩)) 0 :=
  ffn_final_of V c

end Cert.KernelIdeal.HandValue

end
-- ==== Proof.KernelValue.lean ====
/-
  The idealized kernel's result array is the specification's function of the arguments. The matmul region's output
  array is the rectified contraction of the arrays it is entered with; of those, the left factor is the normalisation
  region's output (the normalised rows of the first argument), the right factor is the second argument untouched,
  and the bias row is the third argument recast as a row.
-/
import proofs.«134123_j33732673143833_1_alg».proof.Proof.MainRun
import proofs.«134123_j33732673143833_1_alg».proof.Proof.ValueNorm
import proofs.«134123_j33732673143833_1_alg».proof.Proof.ValueFfn
import proofs.«134123_j33732673143833_1_alg».proof.Proof.Spec
import Idealize.ShloMosaic.Lib.ValueLayout

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- Entry `(r, k)` of the left factor the matmul region is entered with: the normalised input. -/
theorem left_factor (c : Dev nD) (r : Fin 8192) (k : Fin 4096) :
    (E2 m c main_v0 : S8192x4096.Idx → EReal) (ix2 r k) = Cert.Spec.xn (m ((c : Thread nD τ).loc main_arg0)) r k := by
  rw [E2_main_v0 m c, norm_final (E0 m) c]
  rfl

/-- Entry `(0, o)` of the bias row: the bias at `o`. -/
theorem bias_row (c : Dev nD) (o : Fin 4096) :
    (E2 m c main_v1 : S1x4096.Idx → EReal) (ix2 (0 : Fin 1) o) = (m ((c : Thread nD τ).loc main_arg2) : S4096.Idx → EReal) (ix1 o) := by
  rw [E2_main_v1 m c]
  exact shapeCast_a_1a_apply _ shapeCasts_S4096_S1x4096 _ _

/-- The result array the kernel's run ends with is the specification's function of the three arguments. -/
theorem result_is_G (c : Dev nD) :
    ((dat1 (F := Ideal) (E2 m) c).arrAt 3 cfg1.N : S8192x4096.Idx → EReal)
      = Cert.Spec.G (m ((c : Thread nD τ).loc main_arg0)) (m ((c : Thread nD τ).loc main_arg1)) (m ((c : Thread nD τ).loc main_arg2)) := by
  rw [ffn_final (E2 m) c]
  funext i
  unfold Cert.Spec.G Cert.Spec.out
  dsimp only
  refine congrArg₂ (fun s b => max (s + b) 0) (Finset.sum_congr rfl fun k _ => ?_) (bias_row m c _)
  exact congrArg₂ (· * ·) (left_factor m c _ k) (congrFun (W2_main_arg1 m c) _)

end Cert.KernelIdeal.HandValue

end
-- ==== Proof.RefValue.lean ====
/-
  The reference computes the specification's function. Read at an index (r, o), the reference's last value is the
  maximum of zero and the bias at o plus the contraction, over the 4096 input features k, of
  x(r,k) / (sqrt (0 + Σ_j x(r,j)·x(r,j)) + ε) with W(o,k). The row sum starts from the zero word, which denotes 0, so
  the leading 0 drops; the clamp's constant is the same zero word. What remains is, term by term, the entry (r, o) of G.
-/
import proofs.«134123_j33732673143833_1_alg».proof.Proof.Gen.ReferenceIdeal.Read
import proofs.«134123_j33732673143833_1_alg».proof.Proof.Spec

noncomputable section

namespace Cert.RefValue

open Cert.ReferenceIdeal Cert.ReferenceIdeal.Read Idealize.ShloMosaic Idealize.ShloMosaic.ValueIdx

/-- The contraction reads the normalised input at row r, feature k. -/
theorem lhs_at (r : Fin 8192) (o : Fin 4096) (k : Fin 4096) : lidx_main_v8 (ix2 r o) k = ix2 r k :=
  funext fun a => Fin.ext (by match a with | ⟨0, _⟩ => rfl | ⟨1, _⟩ => rfl)

/-- The contraction reads the weights at row o, feature k. -/
theorem rhs_at (r : Fin 8192) (o : Fin 4096) (k : Fin 4096) : ridx_main_v8 (ix2 r o) k = ix2 o k :=
  funext fun a => Fin.ext (by match a with | ⟨0, _⟩ => rfl | ⟨1, _⟩ => rfl)

/-- The bias, broadcast along the rows, is read at o. -/
theorem bias_at (r : Fin 8192) (o : Fin 4096) : idx_main_v9 (idx_main_v10 (ix2 r o)) = ix1 o :=
  funext fun a => Fin.ext (by match a with | ⟨0, _⟩ => rfl)

/-- The divisor, broadcast along the features, is the one of row r. -/
theorem divisor_at (r : Fin 8192) (k : Fin 4096) : idx_main_v2 (idx_main_v6 (ix2 r k)) = ix1 r :=
  funext fun a => Fin.ext (by match a with | ⟨0, _⟩ => rfl)

/-- The row sum of row r runs over the entries (r, j). -/
theorem square_at (r : Fin 8192) (j : Fin 4096) : idx_main_v1 (ix1 r) j = ix2 r j :=
  funext fun a => Fin.ext (by match a with | ⟨0, _⟩ => rfl | ⟨1, _⟩ => rfl)

/-- The reference's result array is G of its three arguments. -/
theorem ref_is_G (x0 : (⟨Cert.ReferenceIdeal.S8192x4096, .f32⟩ : BufTy).Contents (Elt Ideal))
    (x1 : (⟨Cert.ReferenceIdeal.S4096x4096, .f32⟩ : BufTy).Contents (Elt Ideal))
    (x2 : (⟨Cert.ReferenceIdeal.S4096, .f32⟩ : BufTy).Contents (Elt Ideal)) :
    Cert.ReferenceIdeal.Read.val_main_v12 (F := Ideal) x0 x1 x2 = Cert.Spec.G x0 x1 x2 := by
  funext i
  obtain ⟨r, o, rfl⟩ : ∃ (r : Fin 8192) (o : Fin 4096), i = ValueIdx.ix2 r o := ⟨i 0, i 1, ValueIdx.eq_ix2 i⟩
  rw [Cert.Spec.G_ix2, val_main_v12_apply, val_main_v11_apply, val_main_v8_apply, val_main_v10_apply, val_main_v9_apply,
    val_main_call0_v0_apply, val_main_call0_cst_apply]
  simp only [val_main_v7_apply, val_main_v6_apply, val_main_v5_apply, val_main_v4_apply, val_main_cst_0_apply,
    val_main_v3_apply, val_main_v2_apply, val_main_v1_apply, val_main_cst_apply, val_main_v0_apply,
    lhs_at, rhs_at, bias_at, divisor_at, square_at,
    Ideal.maximumf_def, Ideal.addf_def, Ideal.mulf_def, Ideal.hostDivf_def, Ideal.hostUnary_sqrt_def, Ideal.ofBits_def,
    Ideal.ofBits_zero_f32, zero_add]
  unfold Cert.Spec.out Cert.Spec.xn Cert.Spec.den Cert.Spec.eps
  rfl

end Cert.RefValue

end
-- ==== Proof.lean ====
/-
  A row-normalised dense layer: `relu ((x / (‖x‖₂ + ε)) · Wᵀ + b)` over `x : [8192, 4096]`, `W : [4096, 4096]`,
  `b : [4096]`, computed by two pipelined kernels — the rows normalised 256 at a time, then a matrix product blocked
  1024 × 1024 × 1024 whose partial products are summed in an accumulator over the four blocks of the contracted axis,
  the bias added and the result clamped at zero at the last block — against the same expression in plain array
  operations.

  On the extended reals the two are one function, index by index: the changes of float format are the identity, the
  divisions, square roots and maxima are the same operations on both sides with the same ε word, and the only
  difference is the grouping of the contraction's sum into four consecutive blocks added in order from zero, which
  associativity and commutativity of addition remove (no finiteness of the inputs is used). The three frames: the two
  kernel programs run region by region from the launch memory, each region's arrays followed through its
  write-backs, no item writing an argument; the reference is a list of host operations.
-/
import proofs.«134123_j33732673143833_1_alg».proof.Defs
import proofs.«134123_j33732673143833_1_alg».proof.Proof.Gen.Pre_finite_inputs
import proofs.«134123_j33732673143833_1_alg».proof.Proof.Bits.MainRun
import proofs.«134123_j33732673143833_1_alg».proof.Proof.MainRun
import proofs.«134123_j33732673143833_1_alg».proof.Proof.KernelValue
import proofs.«134123_j33732673143833_1_alg».proof.Proof.RefValue

noncomputable section

namespace Cert.Proof

open Idealize.ShloMosaic Idealize.ShloMosaic.TcCoe Idealize.SL.Sem

/-- The word-level kernel program runs to the end, faults nowhere and leaves its arguments as launched. -/
theorem frame_kernel : Cert.frame_Kernel := fun m ρ _ => Cert.Kernel.Hand.frame m ρ

/-- So does the idealized one. -/
theorem frame_kernelIdeal : Cert.frame_KernelIdeal := fun m ρ _ => Cert.KernelIdeal.Hand.frame m ρ

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the specification's function of them. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.HandValue.result_is_G m c), (h c).2⟩)
      (Cert.KernelIdeal.Hand.run_value (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v12_eq, Cert.RefValue.ref_is_G,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
